-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S10000x1 : Shape := ⟨2, ![10000, 1]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S10000x1 : S_.BroadcastsInDim S10000x1 (![] : Fin 0 → Fin S10000x1.rank)
  reducesTo_S10000x1_S_d0_1 : S10000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg2 : FVec F S10000x1 .f32) (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_cst_8 : FVec F S_ .f32 := constant S_ .f32 0x00000000#32
  let main_v24 : FVec F S10000x1 .f32 := broadcastInDim S10000x1 ![] bcast_S_S10000x1 main_cst_8
  let main_v25 : IVec S10000x1 1 := cmpf .ogt main_arg2 main_v24
  let main_c_9 : IVec S_ 1 := constantI S_ 1 1#1
  let main_v26 : IVec S_ 1 := (fun x v => Host.reduce IntOp.andi x v reducesTo_S10000x1_S_d0_1 h_S_) main_v25 main_c_9
  let main_v27 : IVec S_ 1 := andi main_v23 main_v26
  main_v27

def fn {F : FTy → Type} [FloatOps F] (main_arg0 : FVec F S10000x128 .f32) (main_arg1 : FVec F S10000x10000 .f32) (main_arg2 : FVec F S10000x1 .f32) (main_arg3 : FVec F S128x128 .f32) (main_arg4 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x1 .f32 := Host.absf main_arg2
  let main_cst_2 : FVec F S_ .f32 := constant S_ .f32 0x7F800000#32
  let main_v10 : FVec F S10000x1 .f32 := broadcastInDim S10000x1 ![] bcast_S_S10000x1 main_cst_2
  let main_v11 : IVec S10000x1 1 := cmpf .olt main_v9 main_v10
  let main_c_3 : IVec S_ 1 := constantI S_ 1 1#1
  let main_v12 : IVec S_ 1 := (fun x v => Host.reduce IntOp.andi x v reducesTo_S10000x1_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg2 main_arg4 main_v13 main_v16
-- ==== Kernel.lean ====
abbrev S10000x128 : Shape := ⟨2, ![10000, 128]⟩
abbrev S10000x10000 : Shape := ⟨2, ![10000, 10000]⟩
abbrev S10000x1 : Shape := ⟨2, ![10000, 1]⟩
abbrev S128x128 : Shape := ⟨2, ![128, 128]⟩
abbrev S128 : Shape := ⟨1, ![128]⟩
abbrev S1x128 : Shape := ⟨2, ![1, 128]⟩
abbrev S2x5000x1 : Shape := ⟨3, ![2, 5000, 1]⟩
abbrev S2x5000x128 : Shape := ⟨3, ![2, 5000, 128]⟩
abbrev S200x10000 : Shape := ⟨2, ![200, 10000]⟩
abbrev S2x200x1 : Shape := ⟨3, ![2, 200, 1]⟩
abbrev S2x200x128 : Shape := ⟨3, ![2, 200, 128]⟩
abbrev S200x128 : Shape := ⟨2, ![200, 128]⟩
abbrev S1x200x1 : Shape := ⟨3, ![1, 200, 1]⟩
abbrev S200x1 : Shape := ⟨2, ![200, 1]⟩
abbrev S1x200x128 : Shape := ⟨3, ![1, 200, 128]⟩

abbrev nBuf : Space → Nat
  | .hbm => 10
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x1, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S1x128, .f32⟩
  | .hbm, ⟨7, _⟩ => ⟨S2x5000x1, .f32⟩
  | .hbm, ⟨8, _⟩ => ⟨S2x5000x128, .f32⟩
  | .hbm, ⟨9, _⟩ => ⟨S10000x128, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x128, .f32⟩
  | .local _ .vmem, ⟨5, _⟩ => ⟨S2x200x1, .f32⟩
  | .local _ .vmem, ⟨6, _⟩ => ⟨S2x200x1, .f32⟩
  | .local _ .vmem, ⟨7, _⟩ => ⟨S128x128, .f32⟩
  | .local _ .vmem, ⟨8, _⟩ => ⟨S1x128, .f32⟩
  | .local _ .vmem, ⟨9, _⟩ => ⟨S2x200x128, .f32⟩
  | .local _ .vmem, ⟨10, _⟩ => ⟨S2x200x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![25], ![false]⟩

def k0_off1 (i : grid0.Coords) (c0_i32 : BitVec 32) : Fin 2 → Nat :=
  let arg0 : BitVec 32 := BitVec.ofNat 32 (i 0).val
  let c200_i32 : BitVec 32 := 200#32
  let v9 : BitVec 32 := Scalar.muli arg0 c200_i32
  let v10 : BitVec 32 := Scalar.addi c0_i32 v9
  let v11 : Index := Scalar.indexCast v10
  let c0_7 : Index := 0#32
  ![v11.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c25_i32 : BitVec 32 := 25#32
  let v0 : BitVec 32 := Scalar.addi c25_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x200x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x200x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S128x128_S128x128_1_0 : S128x128.Transposes [1, 0] S128x128
  shapeCasts_S128_S1x128 : S128.ShapeCasts S1x128
  shapeCasts_S10000x1_S2x5000x1 : S10000x1.ShapeCasts S2x5000x1
  shapeCasts_S2x5000x128_S10000x128 : S2x5000x128.ShapeCasts S10000x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S2x200x1_S2x200x1_0_0_0 : ∀ a, (![0, 0, 0] : Fin 3 → Nat) a + S2x200x1.size a ≤ S2x200x1.size a
  h_S2x200x1 : 0 < S2x200x1.numel
  shapeCasts_S2x200x1_S2x200x1 : S2x200x1.ShapeCasts S2x200x1
  inb_S200x10000_S200x10000_0_0 : ∀ a, (![0, 0] : Fin 2 → Nat) a + S200x10000.size a ≤ S200x10000.size a
  h_S200x10000 : 0 < S200x10000.numel
  h_S200x128 : 0 < S200x128.numel
  slices_S2x200x1_o0_0_0_S1x200x1 : S2x200x1.Slices ![0, 0, 0] S1x200x1
  shapeCasts_S1x200x1_S200x1 : S1x200x1.ShapeCasts S200x1
  broadcasts_S200x1_S200x128 : S200x1.Broadcasts S200x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  inb_S2x200x128_S1x200x128_0_0_0 : ∀ a, (![0, 0, 0] : Fin 3 → Nat) a + S1x200x128.size a ≤ S2x200x128.size a
  h_S1x200x128 : 0 < S1x200x128.numel
  shapeCasts_S1x200x128_S200x128 : S1x200x128.ShapeCasts S200x128
  shapeCasts_S200x128_S1x200x128 : S200x128.ShapeCasts S1x200x128
  slices_S2x200x1_o1_0_0_S1x200x1 : S2x200x1.Slices ![1, 0, 0] S1x200x1
  inb_S2x200x128_S1x200x128_1_0_0 : ∀ a, (![1, 0, 0] : Fin 3 → Nat) a + S1x200x128.size a ≤ S2x200x128.size a
  dot_S200x10000_S10000x128_S200x128_1_0_0_1_n_n_wf : DotDims.WF S200x10000 S10000x128 S200x128 [1] [0] [0] [1] [] []
  dot_S200x128_S128x128_S200x128_1_0_0_1_n_n_wf : DotDims.WF S200x128 S128x128 S200x128 [1] [0] [0] [1] [] []
  hrank0 : 0 < grid0.rank
  k0_off1_inb : ∀ i : grid0.Coords, ∀ (r : Fin 2), ∀ a, (k0_off1 i (BitVec.ofNat 32 (5000 * r.val))) a + S200x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x200x1.size a ≤ S2x5000x1.size a
  hwx0_3 : ∀ i : grid0.Coords, EltTy.bits .f32 = 32 ∨ (Rect.block (s := S2x5000x1) S2x200x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2x200x128.size a ≤ S2x5000x128.size a
  hwx0_6 : ∀ i : grid0.Coords, EltTy.bits .f32 = 32 ∨ (Rect.block (s := S2x5000x128) S2x200x128.size (cc0_transform_6 i) (hinb0_6 i)).WholeWords (EltTy.packing .f32)

variable [Facts₀]

def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S2x200x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v3) S2x200x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S10000x1 : Shape := ⟨2, ![10000, 1]⟩
abbrev S128x128 : Shape := ⟨2, ![128, 128]⟩
abbrev S128 : Shape := ⟨1, ![128]⟩
abbrev S10000 : Shape := ⟨1, ![10000]⟩
abbrev S_ : Shape := ⟨0, ![]⟩
abbrev S10000x2 : Shape := ⟨2, ![10000, 2]⟩
abbrev S1x128 : Shape := ⟨2, ![1, 128]⟩

abbrev nBuf : Space → Nat
  | .hbm => 41
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x1, .f32⟩
  | .hbm, ⟨3, _⟩ => ⟨S128x128, .f32⟩
  | .hbm, ⟨4, _⟩ => ⟨S128, .f32⟩
  | .hbm, ⟨5, _⟩ => ⟨S10000, .i32⟩
  | .hbm, ⟨6, _⟩ => ⟨S_, .i32⟩
  | .hbm, ⟨7, _⟩ => ⟨S10000, .i32⟩
  | .hbm, ⟨8, _⟩ => ⟨S10000, .i1⟩
  | .hbm, ⟨9, _⟩ => ⟨S_, .i32⟩
  | .hbm, ⟨10, _⟩ => ⟨S10000, .i32⟩
  | .hbm, ⟨11, _⟩ => ⟨S10000, .i32⟩
  | .hbm, ⟨12, _⟩ => ⟨S10000, .i32⟩
  | .hbm, ⟨13, _⟩ => ⟨S_, .i32⟩
  | .hbm, ⟨14, _⟩ => ⟨S10000, .i32⟩
  | .hbm, ⟨15, _⟩ => ⟨S10000, .i1⟩
  | .hbm, ⟨16, _⟩ => ⟨S_, .i32⟩
  | .hbm, ⟨17, _⟩ => ⟨S10000, .i32⟩
  | .hbm, ⟨18, _⟩ => ⟨S10000, .i32⟩
  | .hbm, ⟨19, _⟩ => ⟨S10000, .i32⟩
  | .hbm, ⟨20, _⟩ => ⟨S10000x1, .i32⟩
  | .hbm, ⟨21, _⟩ => ⟨S10000x1, .i32⟩
  | .hbm, ⟨22, _⟩ => ⟨S10000x2, .i32⟩
  | .hbm, ⟨23, _⟩ => ⟨S_, .f32⟩
  | .hbm, ⟨24, _⟩ => ⟨S10000, .f32⟩
  | .hbm, ⟨25, _⟩ => ⟨S10000x10000, .f32⟩
  | .hbm, ⟨26, _⟩ => ⟨S10000x1, .f32⟩
  | .hbm, ⟨27, _⟩ => ⟨S10000x10000, .f32⟩
  | .hbm, ⟨28, _⟩ => ⟨S10000x10000, .f32⟩
  | .hbm, ⟨29, _⟩ => ⟨S10000x10000, .f32⟩
  | .hbm, ⟨30, _⟩ => ⟨S10000x10000, .f32⟩
  | .hbm, ⟨31, _⟩ => ⟨S10000x128, .f32⟩
  | .hbm, ⟨32, _⟩ => ⟨S10000x128, .f32⟩
  | .hbm, ⟨33, _⟩ => ⟨S128x128, .f32⟩
  | .hbm, ⟨34, _⟩ => ⟨S10000x128, .f32⟩
  | .hbm, ⟨35, _⟩ => ⟨S1x128, .f32⟩
  | .hbm, ⟨36, _⟩ => ⟨S10000x128, .f32⟩
  | .hbm, ⟨37, _⟩ => ⟨S10000x128, .f32⟩
  | .hbm, ⟨38, _⟩ => ⟨S_, .f32⟩
  | .hbm, ⟨39, _⟩ => ⟨S10000x128, .f32⟩
  | .hbm, ⟨40, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_cst : Ref sig .tc := ⟨.hbm, 38, rfl⟩
abbrev main_call0_v0 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  bcast_S_S10000 : S_.BroadcastsInDim S10000 (![] : Fin 0 → Fin S10000.rank)
  bcast_S10000_S10000x1_0 : S10000.BroadcastsInDim S10000x1 (![0] : Fin 1 → Fin S10000x1.rank)
  concatenates_S10000x1_S10000x1_S10000x2_d1 : Shape.Concatenates [S10000x1, S10000x1] S10000x2 1
  bcast_S10000x1_S10000x10000_0_1 : S10000x1.BroadcastsInDim S10000x10000 (![0, 1] : Fin 2 → Fin S10000x10000.rank)
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  scatter_S10000x10000_S10000x2_S10000_n_01_01_1_wf : ScatterDims.WF S10000x10000 S10000x2 S10000 [] [0, 1] [0, 1] 1
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def scatter_S10000x10000_S10000x2_S10000_n_01_01_1 : ScatterDims S10000x10000 S10000x2 S10000 where
  updateWindowDims := []
  insertedWindowDims := [0, 1]
  scatterDimsToOperandDims := [0, 1]
  indexVectorDim := 1
  wf := scatter_S10000x10000_S10000x2_S10000_n_01_01_1_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.K.Out.lean ====
/-
  What one run of the kernel body leaves in the output window's staging buffer, as a function of
  the six input blocks it loads: two stores, one per half of the graph's rows. The first store
  (leading index 0) holds relu((inv₀ ⊙ (A₀·x + x₀) + x₀)·Wᵀ + b) for the strip of the top half, the
  second (leading index 1) the same for the strip of the bottom half; x₀ / x₁ are the rows of the
  resident feature matrix the strip's own nodes occupy, read at a row offset computed from the grid
  coordinate.
-/
import proofs.«172173_g23605140259235_cont_8to1_1967_13_alg».proof.Proof.Gen.Kernel.Skeleton
import Idealize.ShloMosaic.Lib.Pipeline.FrameBody

set_option maxRecDepth 16384

noncomputable section

namespace Cert.Kernel.Hand

open Idealize.ShloMosaic Idealize.ShloMosaic.TcCoe Idealize.SL.Sem
open Cert.Kernel Cert.Kernel.Gen

variable {F : FTy → Type} [FloatOps F]

/-- The whole-buffer rectangles of the six input windows' staging buffers. -/
abbrev rA0 : Rect S200x10000 := Rect.unit (s := S200x10000) ![0, 0] S200x10000.size inb_S200x10000_S200x10000_0_0
abbrev rX : Rect S10000x128 := Rect.unit (s := S10000x128) ![0, 0] S10000x128.size inb_S10000x128_S10000x128_0_0
abbrev rD : Rect S2x200x1 := Rect.unit (s := S2x200x1) ![0, 0, 0] S2x200x1.size inb_S2x200x1_S2x200x1_0_0_0
abbrev rW : Rect S128x128 := Rect.unit (s := S128x128) ![0, 0] S128x128.size inb_S128x128_S128x128_0_0
abbrev rB : Rect S1x128 := Rect.unit (s := S1x128) ![0, 0] S1x128.size inb_S1x128_S1x128_0_0
/-- The 200 rows of the feature matrix that belong to the strip of half `h` at grid point `i`. -/
abbrev rXs (i : grid0.Coords) (h : Fin 2) : Rect S10000x128 :=
  Rect.unit (s := S10000x128) (k0_off1 i (BitVec.ofNat 32 (5000 * h.val))) S200x128.size (k0_off1_inb i h)
/-- The two halves of the output block. -/
abbrev rO0 : Rect S2x200x128 := Rect.unit (s := S2x200x128) ![0, 0, 0] S1x200x128.size inb_S2x200x128_S1x200x128_0_0_0
abbrev rO1 : Rect S2x200x128 := Rect.unit (s := S2x200x128) ![1, 0, 0] S1x200x128.size inb_S2x200x128_S1x200x128_1_0_0

/-- The value stored into the top half of the output block. -/
def pay0 (i : grid0.Coords) (a0 : Vec F S200x10000 .f32) (x : Vec F S10000x128 .f32) (dg : Vec F S2x200x1 .f32)
    (wt : Vec F S128x128 .f32) (b : Vec F S1x128 .f32) : Vec F S1x200x128 .f32 :=
  k0_pay4 (View.ld x rX) (View.ld dg rD) (View.ld a0 rA0) (View.ld x (rXs i 0)) (View.ld wt rW) (View.ld b rB)

/-- The value stored into the bottom half of the output block. -/
def pay1 (i : grid0.Coords) (a1 : Vec F S200x10000 .f32) (x : Vec F S10000x128 .f32) (dg : Vec F S2x200x1 .f32)
    (wt : Vec F S128x128 .f32) (b : Vec F S1x128 .f32) : Vec F S1x200x128 .f32 :=
  k0_pay1 (k0_pay3 (View.ld dg rD)) (k0_pay5 (View.ld x rX) (View.ld a1 rA0)) (View.ld x (rXs i 1)) (View.ld wt rW) (View.ld b rB)

/-- The output window's staging buffer after the body: its two stores as pieces, the later one first. -/
def out6 (i : grid0.Coords) (a0 a1 : Vec F S200x10000 .f32) (x : Vec F S10000x128 .f32) (dg : Vec F S2x200x1 .f32)
    (wt : Vec F S128x128 .f32) (b : Vec F S1x128 .f32) : Vec F S2x200x128 .f32 :=
  View.canon [⟨rO1, pay1 i a1 x dg wt b⟩, ⟨rO0, pay0 i a0 x dg wt b⟩]

end Cert.Kernel.Hand

end
-- ==== Proof.K.Dats.lean ====
/-
  The proof data of the one pallas_call, on each core: what every windowed array holds when the
  region is entered, and what the body leaves in every window's staging buffer at each grid point.
  The six input windows keep the block that was fetched; the output window holds the two stored
  halves. The adjacency matrix is handed to the kernel through two windows (its top-half strip and
  its bottom-half strip), so each of them holds one half of the array's share.
-/
import proofs.«172173_g23605140259235_cont_8to1_1967_13_alg».proof.Proof.K.Out
import proofs.«172173_g23605140259235_cont_8to1_1967_13_alg».proof.Proof.Gen.Kernel.Launch
import proofs.«172173_g23605140259235_cont_8to1_1967_13_alg».proof.Proof.Gen.Kernel.Points
import Idealize.ShloMosaic.Lib.Pipeline.FrameBody
import Idealize.ShloMosaic.Lib.Pipeline.Regions

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Core `c`'s buffers at launch, as a valuation of the host operations; -/
abbrev V₀ (c : Dev nD) : Valuation τ sig (Elt F) := fun b => m (c, b)
/-- and when the region is entered: the three host operations before it have run. -/
abbrev V (c : Dev nD) (b : Ref sig .tc) : Buf (Elt F) ((c : Thread nD τ).loc b) := StableHlo.after hostOps0 (V₀ m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (grid0.coords t) (iblk m c 0 t) (iblk m c 1 t) (iblk m c 2 t) (iblk m c 3 t) (iblk m c 4 t) (iblk m c 5 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

/-- The kernel's result array after the last grid point, -/
def outArr (c : Dev nD) : Vec F S2x5000x128 .f32 := (dats m 0 c).arrAt 6 cfg0.N
/-- and the program's result: that array re-laid as 10000 rows. -/
def finalOut (c : Dev nD) : Vec F S10000x128 .f32 := shapeCast S10000x128 (outArr m c) shapeCasts_S2x5000x128_S10000x128

end Cert.Kernel.Hand

end
-- ==== Proof.K.Body.lean ====
/-
  The kernel body's triple: on whole staging buffers, the six inputs at known contents and the
  output at anything, one run of the body returns the inputs as they were and the output buffer
  holding its two stored halves.
-/
import proofs.«172173_g23605140259235_cont_8to1_1967_13_alg».proof.Proof.K.Out
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The two stored halves tile the output block along its leading axis, so they cover it. -/
private theorem cover_out (p1 p0 : Vec F S1x200x128 .f32) (y : S2x200x128.Idx) :
    ∃ pc ∈ ([⟨rO1, p1⟩, ⟨rO0, p0⟩] : List (View.Piece (Elt F) S2x200x128 .f32)), y ∈ pc.1.set :=
  View.cover_of_tiled [⟨rO1, p1⟩, ⟨rO0, p0⟩] S1x200x128.size (by rfl) y

set_option maxHeartbeats 1000000 in
/-- The body at grid coordinate `i`. -/
theorem sound_kernel (c : Dev nD) (E : Set ℕ) (i : grid0.Coords)
    (arg1 : Memref sig .tc .vmem S200x10000 .f32) (harg1 : arg1.IsWhole) (arg2 : Memref sig .tc .vmem S200x10000 .f32) (harg2 : arg2.IsWhole)
    (arg3 : Memref sig .tc .vmem S10000x128 .f32) (harg3 : arg3.IsWhole) (arg4 : Memref sig .tc .vmem S2x200x1 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2x200x128 .f32) (harg7 : arg7.IsWhole)
    (a0 a1 : Vec F S200x10000 .f32) (x : Vec F S10000x128 .f32) (dg : Vec F S2x200x1 .f32) (wt : Vec F S128x128 .f32) (b : Vec F S1x128 .f32)
    (K : PUnit → sProp 𝕄) :
    iprop(owns (c : Thread nD τ) arg1 fullShare a0 ∗ owns (c : Thread nD τ) arg2 fullShare a1 ∗ owns (c : Thread nD τ) arg3 fullShare x
        ∗ owns (c : Thread nD τ) arg4 fullShare dg ∗ owns (c : Thread nD τ) arg5 fullShare wt ∗ owns (c : Thread nD τ) arg6 fullShare b
        ∗ (∃ d, owns (c : Thread nD τ) arg7 fullShare d)
        ∗ (iprop(owns (c : Thread nD τ) arg1 fullShare a0 ∗ owns (c : Thread nD τ) arg2 fullShare a1 ∗ owns (c : Thread nD τ) arg3 fullShare x
            ∗ owns (c : Thread nD τ) arg4 fullShare dg ∗ owns (c : Thread nD τ) arg5 fullShare wt ∗ owns (c : Thread nD τ) arg6 fullShare b
            ∗ owns (c : Thread nD τ) arg7 fullShare (out6 i a0 a1 x dg wt b)) -∗ K ⟨⟩))
      ⊢ wp frame (wpE (defs₀ (F := F)) Variants.none c none) E
          (cc0__gcn_body i arg1 harg1 arg2 harg2 arg3 harg3 arg4 harg4 arg5 harg5 arg6 harg6 arg7 harg7) K := by
  simp only [cc0__gcn_body_eq_skeleton]; unfold cc0__gcn_body_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_out _ _)

end Cert.Kernel.Hand

end
-- ==== Proof.K.Oblig.lean ====
/-
  The body obligation of the pipeline's proof data: at every grid point the body, called on the
  windows' current staging buffers, finds each input window's block there and leaves what the
  proof data says.
-/
import proofs.«172173_g23605140259235_cont_8to1_1967_13_alg».proof.Proof.K.Dats
import proofs.«172173_g23605140259235_cont_8to1_1967_13_alg».proof.Proof.K.Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The proof data, projected -/

/-- The proof data's arrays are the contents the region finds. -/
private theorem A_eq (c : Dev nD) (w : Fin cfg0.W) : (dats m 0 c).A w = V m c (Pipeline.arrRef spec0 w) := by
  dsimp only [dats]

/-- What the body leaves, window by window: each input's block, and the output's two stored halves. -/
private theorem after0_0 (c : Dev nD) (t : Fin cfg0.N) : (dats m 0 c).after 0 t = iblk m c 0 t := by dsimp only [dats]
private theorem after0_1 (c : Dev nD) (t : Fin cfg0.N) : (dats m 0 c).after 1 t = iblk m c 1 t := by dsimp only [dats]
private theorem after0_2 (c : Dev nD) (t : Fin cfg0.N) : (dats m 0 c).after 2 t = iblk m c 2 t := by dsimp only [dats]
private theorem after0_3 (c : Dev nD) (t : Fin cfg0.N) : (dats m 0 c).after 3 t = iblk m c 3 t := by dsimp only [dats]
private theorem after0_4 (c : Dev nD) (t : Fin cfg0.N) : (dats m 0 c).after 4 t = iblk m c 4 t := by dsimp only [dats]
private theorem after0_5 (c : Dev nD) (t : Fin cfg0.N) : (dats m 0 c).after 5 t = iblk m c 5 t := by dsimp only [dats]
private theorem after0_6 (c : Dev nD) (t : Fin cfg0.N) : (dats m 0 c).after 6 t
    = out6 (grid0.coords t) (iblk m c 0 t) (iblk m c 1 t) (iblk m c 2 t) (iblk m c 3 t) (iblk m c 4 t) (iblk m c 5 t) := by dsimp only [dats]

/-! ## The windows' blocks

Each input window's current staging buffer holds the window's block at every grid point, fetched there or not: where
it is not fetched the block index has not moved since the point before, and the body leaves the block in place, so what
the buffer held is still this point's block. (Windows 0, 1, 3 are fetched at every point; windows 2, 4, 5 at the first
only, their index constant.) The output window needs no such fact: the body takes it at any contents. -/

private theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
private theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
private theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
private theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
private theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
private theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)

/-! ## The body obligation, at a generic point -/

/-- What the body is called with at point `t`, the windows one by one, -/
private def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
private def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the kernel's triple applies at those blocks; the
    invariant and what the core owes are the same before and after the point and pass through unread. -/
private theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point: its two conjunctions over the windows written out one by one are the
    generic point's pre and post. -/
theorem body_obligation (c : Dev nD) : BodyObligation (dats (F := F) m 0 c) (defs₀ (F := F)) Variants.none () Set.univ := by
  intro t
  rw [bigSep_W0, bigSep_W0]
  exact sound_body m c t

end Cert.Kernel.Hand

end
-- ==== Proof.K.Shares.lean ====
/-
  The adjacency matrix is staged through two windows, so the pipeline holds its array twice, each
  window at one half of the share. This module opens the pipeline's arrays into the seven
  points-tos they are, and passes between the whole buffers the host operations hold and that form.
-/
import proofs.«172173_g23605140259235_cont_8to1_1967_13_alg».proof.Proof.K.Dats
import Idealize.ShloMosaic.Lib.Pipeline.Regions

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The share each window's array is held at: an input's is the proof data's own (the adjacency matrix's two windows
    at the two halves of the full share, every other input outright), the output's is full. -/
private theorem share0_0 (c : Dev nD) : (dats m 0 c).share 0 = fullShare.left := by
  unfold Dat.share; rw [if_neg (by decide)]; dsimp only [dats]
private theorem share0_1 (c : Dev nD) : (dats m 0 c).share 1 = fullShare.right := by
  unfold Dat.share; rw [if_neg (by decide)]; dsimp only [dats]
private theorem share0_2 (c : Dev nD) : (dats m 0 c).share 2 = fullShare := by
  unfold Dat.share; rw [if_neg (by decide)]; dsimp only [dats]
private theorem share0_3 (c : Dev nD) : (dats m 0 c).share 3 = fullShare := by
  unfold Dat.share; rw [if_neg (by decide)]; dsimp only [dats]
private theorem share0_4 (c : Dev nD) : (dats m 0 c).share 4 = fullShare := by
  unfold Dat.share; rw [if_neg (by decide)]; dsimp only [dats]
private theorem share0_5 (c : Dev nD) : (dats m 0 c).share 5 = fullShare := by
  unfold Dat.share; rw [if_neg (by decide)]; dsimp only [dats]
private theorem share0_6 (c : Dev nD) : (dats m 0 c).share 6 = fullShare := by
  unfold Dat.share; rw [if_pos (by decide)]

/-- Every window's array is a whole buffer, so its element set is every index. -/
private theorem set0 (w : Fin cfg0.W) : (cfg0.win w).arr.view.set = Finset.univ := (arr_whole0 w).set_eq_univ

/-- The pipeline's arrays at contents `A`, window by window: the adjacency matrix at its two halves, the five
    other arrays outright. -/
theorem arrays_chain (c : Dev nD) (A : (w : Fin cfg0.W) → Buf (Elt F) ((cfg0.win w).arr.view.loc (c.tc : Thread nD τ))) :
    ((dats m 0 c).arrays A : sProp 𝕄)
      = iprop((((c.tc : Thread nD τ).loc main_arg1) ↦{fullShare.left} A 0) ∗ (((c.tc : Thread nD τ).loc main_arg1) ↦{fullShare.right} A 1)
          ∗ (((c.tc : Thread nD τ).loc main_arg0) ↦{fullShare} A 2) ∗ (((c.tc : Thread nD τ).loc main_call0_v2) ↦{fullShare} A 3)
          ∗ (((c.tc : Thread nD τ).loc main_call0_v0) ↦{fullShare} A 4) ∗ (((c.tc : Thread nD τ).loc main_call0_v1) ↦{fullShare} A 5)
          ∗ (((c.tc : Thread nD τ).loc main_call0_v3) ↦{fullShare} A 6)) := by
  unfold Dat.arrays
  rw [bigSep_W0]
  rw [share0_0, share0_1, share0_2, share0_3, share0_4, share0_5, share0_6]
  -- windows 0 and 1 are on one array: one rewrite of its element set serves both
  rw [set0 0, set0 2, set0 3, set0 4, set0 5, set0 6]

/-- The distinct buffers behind the windows' arrays, each whole at the full share at contents `W`, one by one. -/
theorem arrBufs_chain (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_arg1) ↦{fullShare} W main_arg1) ∗ (((c.tc : Thread nD τ).loc main_arg0) ↦{fullShare} W main_arg0)
          ∗ (((c.tc : Thread nD τ).loc main_call0_v2) ↦{fullShare} W main_call0_v2) ∗ (((c.tc : Thread nD τ).loc main_call0_v0) ↦{fullShare} W main_call0_v0)
          ∗ (((c.tc : Thread nD τ).loc main_call0_v1) ↦{fullShare} W main_call0_v1) ∗ (((c.tc : Thread nD τ).loc main_call0_v3) ↦{fullShare} W main_call0_v3)) := by
  unfold Pipeline.arrBufs
  exact bigSep_eq_bigSepL_of_eq [main_arg1, main_arg0, main_call0_v2, main_call0_v0, main_call0_v1, main_call0_v3] (by decide) (by decide) _

/-- A buffer held outright is held at its two halves, and conversely. -/
theorem halves (c : Dev nD) (b : Ref sig .tc) (f : Buf (Elt F) ((c.tc : Thread nD τ).loc b)) :
    ((((c.tc : Thread nD τ).loc b) ↦{fullShare} f) : sProp 𝕄)
      ⊣⊢ iprop((((c.tc : Thread nD τ).loc b) ↦{fullShare.left} f) ∗ (((c.tc : Thread nD τ).loc b) ↦{fullShare.right} f)) := by
  exact pointsTo_share (PosShare.mem_left_op_right fullShare)

end Cert.Kernel.Hand

end
-- ==== Proof.K.Run.lean ====
/-
  The run of @main: three host operations, the kernel region, one host operation. From any memory
  with zero semaphore counters every weakly fair execution terminates without a fault; the result
  array holds the kernel's output re-laid as 10000 rows and the five arguments are unchanged.
-/
import proofs.«172173_g23605140259235_cont_8to1_1967_13_alg».proof.Proof.K.Oblig
import proofs.«172173_g23605140259235_cont_8to1_1967_13_alg».proof.Proof.K.Shares
import Idealize.ShloMosaic.Lib.Pipeline.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the whole of the certificate's user component. -/
abbrev EP : Emb (UR sig nD τ) 𝕄 := emb₁

abbrev 𝒱₀ : Variants := Variants.none
/-- No core owes another anything: no level is assigned. -/
abbrev L : GSem nD τ sig → Finset Unit := fun _ => ∅
abbrev lv : GSem nD τ sig → Unit → ℕ := fun _ _ => 0
/-- The prefetched tables' admissible contents: no table. -/
abbrev adm : (p : Fin 1) → (pcfgs (F := F) p).Adm := fun p => (cfgs p).toPCfg_adm

/-- What rides beside the buffers through every segment: the core owes nothing. -/
abbrev R (c : Dev nD) : sProp 𝕄 := iprop(∃ W, owes (c : Thread nD τ) (0 : CellTallies nD τ sig Unit) W)

/-- Core `c`'s buffers when the region is left: as it was entered, the kernel's result array at what the
    pipeline computes. -/
def Vx (c : Dev nD) : Valuation τ sig (Elt F) :=
  Function.update (StableHlo.after hostOps0 (V₀ m c)) (Proc.devRef .tc main_call0_v3) (outArr m c)

theorem Vx_out (c : Dev nD) : Vx m c (Proc.devRef .tc main_call0_v3) = outArr m c :=
  Function.update_self ..

theorem Vx_of_ne (c : Dev nD) {b : Ref sig .tc} (h : b ≠ main_call0_v3) : Vx m c (Proc.devRef .tc b) = V m c b :=
  Function.update_of_ne (StableHlo.devRef_ne_of_ne h) ..

/-- The five arguments are written by none of the three operations before the region, -/
theorem not_written0 (b : Ref sig .tc) (hb : b ≠ main_call0_v0 ∧ b ≠ main_call0_v1 ∧ b ≠ main_call0_v2) :
    ∀ op ∈ (hostOps0 (F := F)), Proc.devRef .tc b ∉ op.writes := by
  obtain ⟨h0, h1, h2⟩ := hb
  intro op hop
  simp only [List.mem_cons, List.mem_nil_iff, or_false] at hop
  rcases hop with rfl | rfl | rfl <;>
    simp only [StableHlo.unary_writes, StableHlo.reshape_writes, Finset.mem_singleton] <;>
    exact StableHlo.devRef_ne_of_ne ‹_›

/-- nor by the one after it. -/
theorem not_written1 (b : Ref sig .tc) (hb : b ≠ main_v0) :
    ∀ op ∈ (hostOps1 (F := F)), Proc.devRef .tc b ∉ op.writes := by
  intro op hop
  simp only [List.mem_cons, List.mem_nil_iff, or_false] at hop
  subst hop
  simp only [StableHlo.reshape_writes, Finset.mem_singleton]
  exact StableHlo.devRef_ne_of_ne hb

/-- An argument reaches the end as launched. -/
theorem arg_kept (c : Dev nD) (b : Ref sig .tc) (h0 : b ≠ main_call0_v0 ∧ b ≠ main_call0_v1 ∧ b ≠ main_call0_v2) (h3 : b ≠ main_call0_v3) (h1 : b ≠ main_v0) :
    StableHlo.after hostOps1 (Vx m c) (Proc.devRef .tc b) = m ((c.tc : Thread nD τ).loc b) := by
  rw [StableHlo.after_of_forall_not_mem hostOps1 _ (not_written1 b h1), Vx_of_ne m c h3]
  exact StableHlo.after_of_forall_not_mem hostOps0 (V₀ m c) (not_written0 b h0)

/-- The result is the kernel's output re-laid. -/
theorem out_final (c : Dev nD) : StableHlo.after hostOps1 (Vx m c) (Proc.devRef .tc main_v0) = finalOut m c := by
  after_results
  rw [Vx_out]
  rfl

/-- A core's unscoped buffers at `W`: the buffers behind the windows' arrays and the rest. -/
theorem unscoped_split (c : Dev nD) (W : (b : Ref sig .tc) → Buf (Elt F) ((c.tc : Thread nD τ).loc b)) :
    (unscopedBufs c W : sProp 𝕄)
      = iprop(Pipeline.arrBufs (Ix := Unit) (Name := ℕ) (U := UR sig nD τ) (Lvl := ℕ) spec0 c W
          ∗ Pipeline.unscopedRest (Ix := Unit) (Name := ℕ) (U := UR sig nD τ) (Lvl := ℕ) spec0 c W) :=
  Pipeline.unscopedBufs_split₀ cfgs 0 winFacts₀0.arr_unscoped c W

/-- ENTRY: the buffers the host operations leave are the pipeline's arrays at their entry contents — the
    adjacency matrix's full share dealt as its two halves to the two windows on it — and the four buffers
    no window stages. -/
theorem entry_bufs (c : Dev nD) :
    (StableHlo.held (c : Thread nD τ) (Pipeline.ucRefs τ sig) (StableHlo.after hostOps0 (V₀ m c)) : sProp 𝕄)
      ⊢ iprop((dats m 0 c).arrays ((dats m 0 c).arrAt · 0)
          ∗ Pipeline.unscopedRest (Ix := Unit) (Name := ℕ) (U := UR sig nD τ) (Lvl := ℕ) spec0 c (V m c)) := by
  rw [show StableHlo.held (c : Thread nD τ) (Pipeline.ucRefs τ sig) (StableHlo.after hostOps0 (V₀ m c)) = unscopedBufs c (V m c) from (Pipeline.unscopedBufs_held c _).symm,
    unscoped_split, arrBufs_chain, arrays_chain]
  iintro ⟨⟨H1, H0, Hv2, Hv0, Hv1, Hv3⟩, Hrest⟩
  ihave H1 := (halves c main_arg1 _).1 $$ H1
  icases H1 with ⟨H1l, H1r⟩
  isplitr [Hrest]
  · isplitl [H1l]; · iexact H1l
    isplitl [H1r]; · iexact H1r
    isplitl [H0]; · iexact H0
    isplitl [Hv2]; · iexact Hv2
    isplitl [Hv0]; · iexact Hv0
    isplitl [Hv1]; · iexact Hv1
    iexact Hv3
  · iexact Hrest

/-- The arrays as the region leaves them: the six inputs as entered, the output at what the pipeline computes. -/
theorem arrays_exit (c : Dev nD) :
    ((dats m 0 c).arrays ((dats m 0 c).arrAt · cfg0.N) : sProp 𝕄)
      = iprop((((c.tc : Thread nD τ).loc main_arg1) ↦{fullShare.left} V m c main_arg1) ∗ (((c.tc : Thread nD τ).loc main_arg1) ↦{fullShare.right} V m c main_arg1)
          ∗ (((c.tc : Thread nD τ).loc main_arg0) ↦{fullShare} V m c main_arg0) ∗ (((c.tc : Thread nD τ).loc main_call0_v2) ↦{fullShare} V m c main_call0_v2)
          ∗ (((c.tc : Thread nD τ).loc main_call0_v0) ↦{fullShare} V m c main_call0_v0) ∗ (((c.tc : Thread nD τ).loc main_call0_v1) ↦{fullShare} V m c main_call0_v1)
          ∗ (((c.tc : Thread nD τ).loc main_call0_v3) ↦{fullShare} outArr m c)) := by
  rw [arrays_chain]
  rw [Dat.arrAt_in (dats m 0 c) 0 rfl, Dat.arrAt_in (dats m 0 c) 1 rfl, Dat.arrAt_in (dats m 0 c) 2 rfl,
    Dat.arrAt_in (dats m 0 c) 3 rfl, Dat.arrAt_in (dats m 0 c) 4 rfl, Dat.arrAt_in (dats m 0 c) 5 rfl]
  rfl

/-- EXIT: the converse — the two halves of the adjacency matrix joined back, the result array at the pipeline's
    output. -/
theorem exit_bufs (c : Dev nD) :
    iprop((dats m 0 c).arrays ((dats m 0 c).arrAt · cfg0.N)
        ∗ Pipeline.unscopedRest (Ix := Unit) (Name := ℕ) (U := UR sig nD τ) (Lvl := ℕ) spec0 c (V m c))
      ⊢ (StableHlo.held (c : Thread nD τ) (Pipeline.ucRefs τ sig) (Vx m c) : sProp 𝕄) := by
  rw [show StableHlo.held (c : Thread nD τ) (Pipeline.ucRefs τ sig) (Vx m c) = unscopedBufs c (fun b => Vx m c b) from (Pipeline.unscopedBufs_held c _).symm,
    unscoped_split, arrBufs_chain, arrays_exit, unscopedRest0_eq, unscopedRest0_eq]
  rw [Vx_out, Vx_of_ne m c (b := main_arg1) (by decide), Vx_of_ne m c (b := main_arg0) (by decide), Vx_of_ne m c (b := main_call0_v2) (by decide),
    Vx_of_ne m c (b := main_call0_v0) (by decide), Vx_of_ne m c (b := main_call0_v1) (by decide),
    Vx_of_ne m c (b := main_arg2) (by decide), Vx_of_ne m c (b := main_arg3) (by decide), Vx_of_ne m c (b := main_arg4) (by decide),
    Vx_of_ne m c (b := main_v0) (by decide)]
  iintro ⟨⟨H1l, H1r, H0, Hv2, Hv0, Hv1, Hv3⟩, Hrest⟩
  ihave H1 := (halves c main_arg1 _).2 $$ [H1l H1r]
  · isplitl [H1l]; · iexact H1l
    iexact H1r
  isplitr [Hrest]
  · isplitl [H1]; · iexact H1
    isplitl [H0]; · iexact H0
    isplitl [Hv2]; · iexact Hv2
    isplitl [Hv0]; · iexact Hv0
    isplitl [Hv1]; · iexact Hv1
    iexact Hv3
  · iexact Hrest

/-- THE HOST SEGMENT before the region: the three operations over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m) R

/-- THE HOST SEGMENT after it: the reshape, over the same buffers as the region leaves them. -/
def seg1 : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (Vx m) R

set_option backward.isDefEq.respectTransparency.types false in
/-- THE REGION: no semaphore of the kernel's own, the invariant the scoped buffers no window stages; entered with
    the windows' arrays sorted out of the unscoped buffers, the four others bypassing; left with them put back. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) (Pipeline.ucRefs τ sig) (Vx m c) ∗ R c)
  X c := iprop(emp)
  Y c := iprop(emp)
  Z c := Pipeline.unscopedRest (Ix := Unit) (Name := ℕ) (U := UR sig nD τ) (Lvl := ℕ) spec0 c (V m c)
  hentry c := by
    have hsplit := entry_bufs m c
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = Pipeline.scopedRest (Ix := Unit) (Name := ℕ) (U := UR sig nD τ) (Lvl := ℕ) (Val := Elt F) spec0 c from rfl]
    iintro ⟨-, -, Hr⟩
    iexact Hr
  hout c := by
    rw [Pipeline.ownSems0_none, show (dats m 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iexact Hr
  hexit c := by
    have hjoin := exit_bufs m c
    iintro ⟨Ha, HO, -, HZ⟩
    imodintro
    isplitr [HO]
    · iapply hjoin
      isplitl [Ha]; · iexact Ha
      iexact HZ
    · unfold Pipeline.Dat.owesAt Pipeline.owesWithin
      icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

set_option backward.isDefEq.respectTransparency.types false in
theorem run_main : θ_run defs (onTc (τ := τ) (main (F := F))) ⟨m, fun _ => 0, ρ⟩ (fun r => ∀ c : Dev nD,
      r.2.mem ((c.tc : Thread nD τ).loc main_v0) = finalOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  exact Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (EP (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (StableHlo.after hostOps1 (Vx m c)))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c.tc : Thread nD τ).loc main_v0) = finalOut m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4))
    (hfin := fun c s' => by
      rw [show StableHlo.held (c : Thread nD τ) (Pipeline.ucRefs τ sig) (StableHlo.after hostOps1 (Vx m c))
        = unscopedBufs c (fun b => StableHlo.after hostOps1 (Vx m c) b) from (Pipeline.unscopedBufs_held c _).symm]
      unfold unscopedBufs
      iintro ⟨Hh, HSI⟩
      ihave Hr := (pointsTo_read_all (Finset.univ.filter fun b : Ref sig .tc => ¬ b.isScoped) (fun b => (c.tc : Thread nD τ).loc b)
        (fun b => StableHlo.after hostOps1 (Vx m c) b) s') $$ [Hh HSI]
      · isplitl [Hh] <;> iassumption
      icases Hr with ⟨%hr, HSI⟩
      imodintro
      isplitr
      · ipureintro
        refine ⟨(hr main_v0 (by decide)).trans (out_final m c),
          (hr main_arg0 (by decide)).trans (arg_kept m c main_arg0 (by decide) (by decide) (by decide)),
          (hr main_arg1 (by decide)).trans (arg_kept m c main_arg1 (by decide) (by decide) (by decide)),
          (hr main_arg2 (by decide)).trans (arg_kept m c main_arg2 (by decide) (by decide) (by decide)),
          (hr main_arg3 (by decide)).trans (arg_kept m c main_arg3 (by decide) (by decide) (by decide)),
          (hr main_arg4 (by decide)).trans (arg_kept m c main_arg4 (by decide) (by decide) (by decide))⟩
      iexact HSI)
    (hQ := fun _ h => h)

end Cert.Kernel.Hand

end
-- ==== Proof.KI.Out.lean ====
/-
  What one run of the kernel body leaves in the output window's staging buffer, as a function of
  the six input blocks it loads: two stores, one per half of the graph's rows. The first store
  (leading index 0) holds relu((inv₀ ⊙ (A₀·x + x₀) + x₀)·Wᵀ + b) for the strip of the top half, the
  second (leading index 1) the same for the strip of the bottom half; x₀ / x₁ are the rows of the
  resident feature matrix the strip's own nodes occupy, read at a row offset computed from the grid
  coordinate.
-/
import proofs.«172173_g23605140259235_cont_8to1_1967_13_alg».proof.Proof.Gen.KernelIdeal.Skeleton
import Idealize.ShloMosaic.Lib.Pipeline.FrameBody

set_option maxRecDepth 16384

noncomputable section

namespace Cert.KernelIdeal.Hand

open Idealize.ShloMosaic Idealize.ShloMosaic.TcCoe Idealize.SL.Sem
open Cert.KernelIdeal Cert.KernelIdeal.Gen

variable {F : FTy → Type} [FloatOps F]

/-- The whole-buffer rectangles of the six input windows' staging buffers. -/
abbrev rA0 : Rect S200x10000 := Rect.unit (s := S200x10000) ![0, 0] S200x10000.size inb_S200x10000_S200x10000_0_0
abbrev rX : Rect S10000x128 := Rect.unit (s := S10000x128) ![0, 0] S10000x128.size inb_S10000x128_S10000x128_0_0
abbrev rD : Rect S2x200x1 := Rect.unit (s := S2x200x1) ![0, 0, 0] S2x200x1.size inb_S2x200x1_S2x200x1_0_0_0
abbrev rW : Rect S128x128 := Rect.unit (s := S128x128) ![0, 0] S128x128.size inb_S128x128_S128x128_0_0
abbrev rB : Rect S1x128 := Rect.unit (s := S1x128) ![0, 0] S1x128.size inb_S1x128_S1x128_0_0
/-- The 200 rows of the feature matrix that belong to the strip of half `h` at grid point `i`. -/
abbrev rXs (i : grid0.Coords) (h : Fin 2) : Rect S10000x128 :=
  Rect.unit (s := S10000x128) (k0_off1 i (BitVec.ofNat 32 (5000 * h.val))) S200x128.size (k0_off1_inb i h)
/-- The two halves of the output block. -/
abbrev rO0 : Rect S2x200x128 := Rect.unit (s := S2x200x128) ![0, 0, 0] S1x200x128.size inb_S2x200x128_S1x200x128_0_0_0
abbrev rO1 : Rect S2x200x128 := Rect.unit (s := S2x200x128) ![1, 0, 0] S1x200x128.size inb_S2x200x128_S1x200x128_1_0_0

/-- The value stored into the top half of the output block. -/
def pay0 (i : grid0.Coords) (a0 : Vec F S200x10000 .f32) (x : Vec F S10000x128 .f32) (dg : Vec F S2x200x1 .f32)
    (wt : Vec F S128x128 .f32) (b : Vec F S1x128 .f32) : Vec F S1x200x128 .f32 :=
  k0_pay4 (View.ld x rX) (View.ld dg rD) (View.ld a0 rA0) (View.ld x (rXs i 0)) (View.ld wt rW) (View.ld b rB)

/-- The value stored into the bottom half of the output block. -/
def pay1 (i : grid0.Coords) (a1 : Vec F S200x10000 .f32) (x : Vec F S10000x128 .f32) (dg : Vec F S2x200x1 .f32)
    (wt : Vec F S128x128 .f32) (b : Vec F S1x128 .f32) : Vec F S1x200x128 .f32 :=
  k0_pay1 (k0_pay3 (View.ld dg rD)) (k0_pay5 (View.ld x rX) (View.ld a1 rA0)) (View.ld x (rXs i 1)) (View.ld wt rW) (View.ld b rB)

/-- The output window's staging buffer after the body: its two stores as pieces, the later one first. -/
def out6 (i : grid0.Coords) (a0 a1 : Vec F S200x10000 .f32) (x : Vec F S10000x128 .f32) (dg : Vec F S2x200x1 .f32)
    (wt : Vec F S128x128 .f32) (b : Vec F S1x128 .f32) : Vec F S2x200x128 .f32 :=
  View.canon [⟨rO1, pay1 i a1 x dg wt b⟩, ⟨rO0, pay0 i a0 x dg wt b⟩]

end Cert.KernelIdeal.Hand

end
-- ==== Proof.KI.Dats.lean ====
/-
  The proof data of the one pallas_call, on each core: what every windowed array holds when the
  region is entered, and what the body leaves in every window's staging buffer at each grid point.
  The six input windows keep the block that was fetched; the output window holds the two stored
  halves. The adjacency matrix is handed to the kernel through two windows (its top-half strip and
  its bottom-half strip), so each of them holds one half of the array's share.
-/
import proofs.«172173_g23605140259235_cont_8to1_1967_13_alg».proof.Proof.KI.Out
import proofs.«172173_g23605140259235_cont_8to1_1967_13_alg».proof.Proof.Gen.KernelIdeal.Launch
import proofs.«172173_g23605140259235_cont_8to1_1967_13_alg».proof.Proof.Gen.KernelIdeal.Points
import Idealize.ShloMosaic.Lib.Pipeline.FrameBody
import Idealize.ShloMosaic.Lib.Pipeline.Regions

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Core `c`'s buffers at launch, as a valuation of the host operations; -/
abbrev V₀ (c : Dev nD) : Valuation τ sig (Elt F) := fun b => m (c, b)
/-- and when the region is entered: the three host operations before it have run. -/
abbrev V (c : Dev nD) (b : Ref sig .tc) : Buf (Elt F) ((c : Thread nD τ).loc b) := StableHlo.after hostOps0 (V₀ m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (grid0.coords t) (iblk m c 0 t) (iblk m c 1 t) (iblk m c 2 t) (iblk m c 3 t) (iblk m c 4 t) (iblk m c 5 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

/-- The kernel's result array after the last grid point, -/
def outArr (c : Dev nD) : Vec F S2x5000x128 .f32 := (dats m 0 c).arrAt 6 cfg0.N
/-- and the program's result: that array re-laid as 10000 rows. -/
def finalOut (c : Dev nD) : Vec F S10000x128 .f32 := shapeCast S10000x128 (outArr m c) shapeCasts_S2x5000x128_S10000x128

end Cert.KernelIdeal.Hand

end
-- ==== Proof.KI.Body.lean ====
/-
  The kernel body's triple: on whole staging buffers, the six inputs at known contents and the
  output at anything, one run of the body returns the inputs as they were and the output buffer
  holding its two stored halves.
-/
import proofs.«172173_g23605140259235_cont_8to1_1967_13_alg».proof.Proof.KI.Out
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The two stored halves tile the output block along its leading axis, so they cover it. -/
private theorem cover_out (p1 p0 : Vec F S1x200x128 .f32) (y : S2x200x128.Idx) :
    ∃ pc ∈ ([⟨rO1, p1⟩, ⟨rO0, p0⟩] : List (View.Piece (Elt F) S2x200x128 .f32)), y ∈ pc.1.set :=
  View.cover_of_tiled [⟨rO1, p1⟩, ⟨rO0, p0⟩] S1x200x128.size (by rfl) y

set_option maxHeartbeats 1000000 in
/-- The body at grid coordinate `i`. -/
theorem sound_kernel (c : Dev nD) (E : Set ℕ) (i : grid0.Coords)
    (arg1 : Memref sig .tc .vmem S200x10000 .f32) (harg1 : arg1.IsWhole) (arg2 : Memref sig .tc .vmem S200x10000 .f32) (harg2 : arg2.IsWhole)
    (arg3 : Memref sig .tc .vmem S10000x128 .f32) (harg3 : arg3.IsWhole) (arg4 : Memref sig .tc .vmem S2x200x1 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2x200x128 .f32) (harg7 : arg7.IsWhole)
    (a0 a1 : Vec F S200x10000 .f32) (x : Vec F S10000x128 .f32) (dg : Vec F S2x200x1 .f32) (wt : Vec F S128x128 .f32) (b : Vec F S1x128 .f32)
    (K : PUnit → sProp 𝕄) :
    iprop(owns (c : Thread nD τ) arg1 fullShare a0 ∗ owns (c : Thread nD τ) arg2 fullShare a1 ∗ owns (c : Thread nD τ) arg3 fullShare x
        ∗ owns (c : Thread nD τ) arg4 fullShare dg ∗ owns (c : Thread nD τ) arg5 fullShare wt ∗ owns (c : Thread nD τ) arg6 fullShare b
        ∗ (∃ d, owns (c : Thread nD τ) arg7 fullShare d)
        ∗ (iprop(owns (c : Thread nD τ) arg1 fullShare a0 ∗ owns (c : Thread nD τ) arg2 fullShare a1 ∗ owns (c : Thread nD τ) arg3 fullShare x
            ∗ owns (c : Thread nD τ) arg4 fullShare dg ∗ owns (c : Thread nD τ) arg5 fullShare wt ∗ owns (c : Thread nD τ) arg6 fullShare b
            ∗ owns (c : Thread nD τ) arg7 fullShare (out6 i a0 a1 x dg wt b)) -∗ K ⟨⟩))
      ⊢ wp frame (wpE (defs₀ (F := F)) Variants.none c none) E
          (cc0__gcn_body i arg1 harg1 arg2 harg2 arg3 harg3 arg4 harg4 arg5 harg5 arg6 harg6 arg7 harg7) K := by
  simp only [cc0__gcn_body_eq_skeleton]; unfold cc0__gcn_body_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_out _ _)

end Cert.KernelIdeal.Hand

end
-- ==== Proof.KI.Oblig.lean ====
/-
  The body obligation of the pipeline's proof data: at every grid point the body, called on the
  windows' current staging buffers, finds each input window's block there and leaves what the
  proof data says.
-/
import proofs.«172173_g23605140259235_cont_8to1_1967_13_alg».proof.Proof.KI.Dats
import proofs.«172173_g23605140259235_cont_8to1_1967_13_alg».proof.Proof.KI.Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The proof data, projected -/

/-- The proof data's arrays are the contents the region finds. -/
private theorem A_eq (c : Dev nD) (w : Fin cfg0.W) : (dats m 0 c).A w = V m c (Pipeline.arrRef spec0 w) := by
  dsimp only [dats]

/-- What the body leaves, window by window: each input's block, and the output's two stored halves. -/
private theorem after0_0 (c : Dev nD) (t : Fin cfg0.N) : (dats m 0 c).after 0 t = iblk m c 0 t := by dsimp only [dats]
private theorem after0_1 (c : Dev nD) (t : Fin cfg0.N) : (dats m 0 c).after 1 t = iblk m c 1 t := by dsimp only [dats]
private theorem after0_2 (c : Dev nD) (t : Fin cfg0.N) : (dats m 0 c).after 2 t = iblk m c 2 t := by dsimp only [dats]
private theorem after0_3 (c : Dev nD) (t : Fin cfg0.N) : (dats m 0 c).after 3 t = iblk m c 3 t := by dsimp only [dats]
private theorem after0_4 (c : Dev nD) (t : Fin cfg0.N) : (dats m 0 c).after 4 t = iblk m c 4 t := by dsimp only [dats]
private theorem after0_5 (c : Dev nD) (t : Fin cfg0.N) : (dats m 0 c).after 5 t = iblk m c 5 t := by dsimp only [dats]
private theorem after0_6 (c : Dev nD) (t : Fin cfg0.N) : (dats m 0 c).after 6 t
    = out6 (grid0.coords t) (iblk m c 0 t) (iblk m c 1 t) (iblk m c 2 t) (iblk m c 3 t) (iblk m c 4 t) (iblk m c 5 t) := by dsimp only [dats]

/-! ## The windows' blocks

Each input window's current staging buffer holds the window's block at every grid point, fetched there or not: where
it is not fetched the block index has not moved since the point before, and the body leaves the block in place, so what
the buffer held is still this point's block. (Windows 0, 1, 3 are fetched at every point; windows 2, 4, 5 at the first
only, their index constant.) The output window needs no such fact: the body takes it at any contents. -/

private theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
private theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
private theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
private theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
private theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
private theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)

/-! ## The body obligation, at a generic point -/

/-- What the body is called with at point `t`, the windows one by one, -/
private def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
private def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the kernel's triple applies at those blocks; the
    invariant and what the core owes are the same before and after the point and pass through unread. -/
private theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point: its two conjunctions over the windows written out one by one are the
    generic point's pre and post. -/
theorem body_obligation (c : Dev nD) : BodyObligation (dats (F := F) m 0 c) (defs₀ (F := F)) Variants.none () Set.univ := by
  intro t
  rw [bigSep_W0, bigSep_W0]
  exact sound_body m c t

end Cert.KernelIdeal.Hand

end
-- ==== Proof.KI.Shares.lean ====
/-
  The adjacency matrix is staged through two windows, so the pipeline holds its array twice, each
  window at one half of the share. This module opens the pipeline's arrays into the seven
  points-tos they are, and passes between the whole buffers the host operations hold and that form.
-/
import proofs.«172173_g23605140259235_cont_8to1_1967_13_alg».proof.Proof.KI.Dats
import Idealize.ShloMosaic.Lib.Pipeline.Regions

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The share each window's array is held at: an input's is the proof data's own (the adjacency matrix's two windows
    at the two halves of the full share, every other input outright), the output's is full. -/
private theorem share0_0 (c : Dev nD) : (dats m 0 c).share 0 = fullShare.left := by
  unfold Dat.share; rw [if_neg (by decide)]; dsimp only [dats]
private theorem share0_1 (c : Dev nD) : (dats m 0 c).share 1 = fullShare.right := by
  unfold Dat.share; rw [if_neg (by decide)]; dsimp only [dats]
private theorem share0_2 (c : Dev nD) : (dats m 0 c).share 2 = fullShare := by
  unfold Dat.share; rw [if_neg (by decide)]; dsimp only [dats]
private theorem share0_3 (c : Dev nD) : (dats m 0 c).share 3 = fullShare := by
  unfold Dat.share; rw [if_neg (by decide)]; dsimp only [dats]
private theorem share0_4 (c : Dev nD) : (dats m 0 c).share 4 = fullShare := by
  unfold Dat.share; rw [if_neg (by decide)]; dsimp only [dats]
private theorem share0_5 (c : Dev nD) : (dats m 0 c).share 5 = fullShare := by
  unfold Dat.share; rw [if_neg (by decide)]; dsimp only [dats]
private theorem share0_6 (c : Dev nD) : (dats m 0 c).share 6 = fullShare := by
  unfold Dat.share; rw [if_pos (by decide)]

/-- Every window's array is a whole buffer, so its element set is every index. -/
private theorem set0 (w : Fin cfg0.W) : (cfg0.win w).arr.view.set = Finset.univ := (arr_whole0 w).set_eq_univ

/-- The pipeline's arrays at contents `A`, window by window: the adjacency matrix at its two halves, the five
    other arrays outright. -/
theorem arrays_chain (c : Dev nD) (A : (w : Fin cfg0.W) → Buf (Elt F) ((cfg0.win w).arr.view.loc (c.tc : Thread nD τ))) :
    ((dats m 0 c).arrays A : sProp 𝕄)
      = iprop((((c.tc : Thread nD τ).loc main_arg1) ↦{fullShare.left} A 0) ∗ (((c.tc : Thread nD τ).loc main_arg1) ↦{fullShare.right} A 1)
          ∗ (((c.tc : Thread nD τ).loc main_arg0) ↦{fullShare} A 2) ∗ (((c.tc : Thread nD τ).loc main_call0_v2) ↦{fullShare} A 3)
          ∗ (((c.tc : Thread nD τ).loc main_call0_v0) ↦{fullShare} A 4) ∗ (((c.tc : Thread nD τ).loc main_call0_v1) ↦{fullShare} A 5)
          ∗ (((c.tc : Thread nD τ).loc main_call0_v3) ↦{fullShare} A 6)) := by
  unfold Dat.arrays
  rw [bigSep_W0]
  rw [share0_0, share0_1, share0_2, share0_3, share0_4, share0_5, share0_6]
  -- windows 0 and 1 are on one array: one rewrite of its element set serves both
  rw [set0 0, set0 2, set0 3, set0 4, set0 5, set0 6]

/-- The distinct buffers behind the windows' arrays, each whole at the full share at contents `W`, one by one. -/
theorem arrBufs_chain (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_arg1) ↦{fullShare} W main_arg1) ∗ (((c.tc : Thread nD τ).loc main_arg0) ↦{fullShare} W main_arg0)
          ∗ (((c.tc : Thread nD τ).loc main_call0_v2) ↦{fullShare} W main_call0_v2) ∗ (((c.tc : Thread nD τ).loc main_call0_v0) ↦{fullShare} W main_call0_v0)
          ∗ (((c.tc : Thread nD τ).loc main_call0_v1) ↦{fullShare} W main_call0_v1) ∗ (((c.tc : Thread nD τ).loc main_call0_v3) ↦{fullShare} W main_call0_v3)) := by
  unfold Pipeline.arrBufs
  exact bigSep_eq_bigSepL_of_eq [main_arg1, main_arg0, main_call0_v2, main_call0_v0, main_call0_v1, main_call0_v3] (by decide) (by decide) _

/-- A buffer held outright is held at its two halves, and conversely. -/
theorem halves (c : Dev nD) (b : Ref sig .tc) (f : Buf (Elt F) ((c.tc : Thread nD τ).loc b)) :
    ((((c.tc : Thread nD τ).loc b) ↦{fullShare} f) : sProp 𝕄)
      ⊣⊢ iprop((((c.tc : Thread nD τ).loc b) ↦{fullShare.left} f) ∗ (((c.tc : Thread nD τ).loc b) ↦{fullShare.right} f)) := by
  exact pointsTo_share (PosShare.mem_left_op_right fullShare)

end Cert.KernelIdeal.Hand

end
-- ==== Proof.KI.Run.lean ====
/-
  The run of @main: three host operations, the kernel region, one host operation. From any memory
  with zero semaphore counters every weakly fair execution terminates without a fault; the result
  array holds the kernel's output re-laid as 10000 rows and the five arguments are unchanged.
-/
import proofs.«172173_g23605140259235_cont_8to1_1967_13_alg».proof.Proof.KI.Oblig
import proofs.«172173_g23605140259235_cont_8to1_1967_13_alg».proof.Proof.KI.Shares
import Idealize.ShloMosaic.Lib.Pipeline.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the whole of the certificate's user component. -/
abbrev EP : Emb (UR sig nD τ) 𝕄 := emb₁

abbrev 𝒱₀ : Variants := Variants.none
/-- No core owes another anything: no level is assigned. -/
abbrev L : GSem nD τ sig → Finset Unit := fun _ => ∅
abbrev lv : GSem nD τ sig → Unit → ℕ := fun _ _ => 0
/-- The prefetched tables' admissible contents: no table. -/
abbrev adm : (p : Fin 1) → (pcfgs (F := F) p).Adm := fun p => (cfgs p).toPCfg_adm

/-- What rides beside the buffers through every segment: the core owes nothing. -/
abbrev R (c : Dev nD) : sProp 𝕄 := iprop(∃ W, owes (c : Thread nD τ) (0 : CellTallies nD τ sig Unit) W)

/-- Core `c`'s buffers when the region is left: as it was entered, the kernel's result array at what the
    pipeline computes. -/
def Vx (c : Dev nD) : Valuation τ sig (Elt F) :=
  Function.update (StableHlo.after hostOps0 (V₀ m c)) (Proc.devRef .tc main_call0_v3) (outArr m c)

theorem Vx_out (c : Dev nD) : Vx m c (Proc.devRef .tc main_call0_v3) = outArr m c :=
  Function.update_self ..

theorem Vx_of_ne (c : Dev nD) {b : Ref sig .tc} (h : b ≠ main_call0_v3) : Vx m c (Proc.devRef .tc b) = V m c b :=
  Function.update_of_ne (StableHlo.devRef_ne_of_ne h) ..

/-- The five arguments are written by none of the three operations before the region, -/
theorem not_written0 (b : Ref sig .tc) (hb : b ≠ main_call0_v0 ∧ b ≠ main_call0_v1 ∧ b ≠ main_call0_v2) :
    ∀ op ∈ (hostOps0 (F := F)), Proc.devRef .tc b ∉ op.writes := by
  obtain ⟨h0, h1, h2⟩ := hb
  intro op hop
  simp only [List.mem_cons, List.mem_nil_iff, or_false] at hop
  rcases hop with rfl | rfl | rfl <;>
    simp only [StableHlo.unary_writes, StableHlo.reshape_writes, Finset.mem_singleton] <;>
    exact StableHlo.devRef_ne_of_ne ‹_›

/-- nor by the one after it. -/
theorem not_written1 (b : Ref sig .tc) (hb : b ≠ main_v0) :
    ∀ op ∈ (hostOps1 (F := F)), Proc.devRef .tc b ∉ op.writes := by
  intro op hop
  simp only [List.mem_cons, List.mem_nil_iff, or_false] at hop
  subst hop
  simp only [StableHlo.reshape_writes, Finset.mem_singleton]
  exact StableHlo.devRef_ne_of_ne hb

/-- An argument reaches the end as launched. -/
theorem arg_kept (c : Dev nD) (b : Ref sig .tc) (h0 : b ≠ main_call0_v0 ∧ b ≠ main_call0_v1 ∧ b ≠ main_call0_v2) (h3 : b ≠ main_call0_v3) (h1 : b ≠ main_v0) :
    StableHlo.after hostOps1 (Vx m c) (Proc.devRef .tc b) = m ((c.tc : Thread nD τ).loc b) := by
  rw [StableHlo.after_of_forall_not_mem hostOps1 _ (not_written1 b h1), Vx_of_ne m c h3]
  exact StableHlo.after_of_forall_not_mem hostOps0 (V₀ m c) (not_written0 b h0)

/-- The result is the kernel's output re-laid. -/
theorem out_final (c : Dev nD) : StableHlo.after hostOps1 (Vx m c) (Proc.devRef .tc main_v0) = finalOut m c := by
  after_results
  rw [Vx_out]
  rfl

/-- A core's unscoped buffers at `W`: the buffers behind the windows' arrays and the rest. -/
theorem unscoped_split (c : Dev nD) (W : (b : Ref sig .tc) → Buf (Elt F) ((c.tc : Thread nD τ).loc b)) :
    (unscopedBufs c W : sProp 𝕄)
      = iprop(Pipeline.arrBufs (Ix := Unit) (Name := ℕ) (U := UR sig nD τ) (Lvl := ℕ) spec0 c W
          ∗ Pipeline.unscopedRest (Ix := Unit) (Name := ℕ) (U := UR sig nD τ) (Lvl := ℕ) spec0 c W) :=
  Pipeline.unscopedBufs_split₀ cfgs 0 winFacts₀0.arr_unscoped c W

/-- ENTRY: the buffers the host operations leave are the pipeline's arrays at their entry contents — the
    adjacency matrix's full share dealt as its two halves to the two windows on it — and the four buffers
    no window stages. -/
theorem entry_bufs (c : Dev nD) :
    (StableHlo.held (c : Thread nD τ) (Pipeline.ucRefs τ sig) (StableHlo.after hostOps0 (V₀ m c)) : sProp 𝕄)
      ⊢ iprop((dats m 0 c).arrays ((dats m 0 c).arrAt · 0)
          ∗ Pipeline.unscopedRest (Ix := Unit) (Name := ℕ) (U := UR sig nD τ) (Lvl := ℕ) spec0 c (V m c)) := by
  rw [show StableHlo.held (c : Thread nD τ) (Pipeline.ucRefs τ sig) (StableHlo.after hostOps0 (V₀ m c)) = unscopedBufs c (V m c) from (Pipeline.unscopedBufs_held c _).symm,
    unscoped_split, arrBufs_chain, arrays_chain]
  iintro ⟨⟨H1, H0, Hv2, Hv0, Hv1, Hv3⟩, Hrest⟩
  ihave H1 := (halves c main_arg1 _).1 $$ H1
  icases H1 with ⟨H1l, H1r⟩
  isplitr [Hrest]
  · isplitl [H1l]; · iexact H1l
    isplitl [H1r]; · iexact H1r
    isplitl [H0]; · iexact H0
    isplitl [Hv2]; · iexact Hv2
    isplitl [Hv0]; · iexact Hv0
    isplitl [Hv1]; · iexact Hv1
    iexact Hv3
  · iexact Hrest

/-- The arrays as the region leaves them: the six inputs as entered, the output at what the pipeline computes. -/
theorem arrays_exit (c : Dev nD) :
    ((dats m 0 c).arrays ((dats m 0 c).arrAt · cfg0.N) : sProp 𝕄)
      = iprop((((c.tc : Thread nD τ).loc main_arg1) ↦{fullShare.left} V m c main_arg1) ∗ (((c.tc : Thread nD τ).loc main_arg1) ↦{fullShare.right} V m c main_arg1)
          ∗ (((c.tc : Thread nD τ).loc main_arg0) ↦{fullShare} V m c main_arg0) ∗ (((c.tc : Thread nD τ).loc main_call0_v2) ↦{fullShare} V m c main_call0_v2)
          ∗ (((c.tc : Thread nD τ).loc main_call0_v0) ↦{fullShare} V m c main_call0_v0) ∗ (((c.tc : Thread nD τ).loc main_call0_v1) ↦{fullShare} V m c main_call0_v1)
          ∗ (((c.tc : Thread nD τ).loc main_call0_v3) ↦{fullShare} outArr m c)) := by
  rw [arrays_chain]
  rw [Dat.arrAt_in (dats m 0 c) 0 rfl, Dat.arrAt_in (dats m 0 c) 1 rfl, Dat.arrAt_in (dats m 0 c) 2 rfl,
    Dat.arrAt_in (dats m 0 c) 3 rfl, Dat.arrAt_in (dats m 0 c) 4 rfl, Dat.arrAt_in (dats m 0 c) 5 rfl]
  rfl

/-- EXIT: the converse — the two halves of the adjacency matrix joined back, the result array at the pipeline's
    output. -/
theorem exit_bufs (c : Dev nD) :
    iprop((dats m 0 c).arrays ((dats m 0 c).arrAt · cfg0.N)
        ∗ Pipeline.unscopedRest (Ix := Unit) (Name := ℕ) (U := UR sig nD τ) (Lvl := ℕ) spec0 c (V m c))
      ⊢ (StableHlo.held (c : Thread nD τ) (Pipeline.ucRefs τ sig) (Vx m c) : sProp 𝕄) := by
  rw [show StableHlo.held (c : Thread nD τ) (Pipeline.ucRefs τ sig) (Vx m c) = unscopedBufs c (fun b => Vx m c b) from (Pipeline.unscopedBufs_held c _).symm,
    unscoped_split, arrBufs_chain, arrays_exit, unscopedRest0_eq, unscopedRest0_eq]
  rw [Vx_out, Vx_of_ne m c (b := main_arg1) (by decide), Vx_of_ne m c (b := main_arg0) (by decide), Vx_of_ne m c (b := main_call0_v2) (by decide),
    Vx_of_ne m c (b := main_call0_v0) (by decide), Vx_of_ne m c (b := main_call0_v1) (by decide),
    Vx_of_ne m c (b := main_arg2) (by decide), Vx_of_ne m c (b := main_arg3) (by decide), Vx_of_ne m c (b := main_arg4) (by decide),
    Vx_of_ne m c (b := main_v0) (by decide)]
  iintro ⟨⟨H1l, H1r, H0, Hv2, Hv0, Hv1, Hv3⟩, Hrest⟩
  ihave H1 := (halves c main_arg1 _).2 $$ [H1l H1r]
  · isplitl [H1l]; · iexact H1l
    iexact H1r
  isplitr [Hrest]
  · isplitl [H1]; · iexact H1
    isplitl [H0]; · iexact H0
    isplitl [Hv2]; · iexact Hv2
    isplitl [Hv0]; · iexact Hv0
    isplitl [Hv1]; · iexact Hv1
    iexact Hv3
  · iexact Hrest

/-- THE HOST SEGMENT before the region: the three operations over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m) R

/-- THE HOST SEGMENT after it: the reshape, over the same buffers as the region leaves them. -/
def seg1 : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (Vx m) R

set_option backward.isDefEq.respectTransparency.types false in
/-- THE REGION: no semaphore of the kernel's own, the invariant the scoped buffers no window stages; entered with
    the windows' arrays sorted out of the unscoped buffers, the four others bypassing; left with them put back. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) (Pipeline.ucRefs τ sig) (Vx m c) ∗ R c)
  X c := iprop(emp)
  Y c := iprop(emp)
  Z c := Pipeline.unscopedRest (Ix := Unit) (Name := ℕ) (U := UR sig nD τ) (Lvl := ℕ) spec0 c (V m c)
  hentry c := by
    have hsplit := entry_bufs m c
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = Pipeline.scopedRest (Ix := Unit) (Name := ℕ) (U := UR sig nD τ) (Lvl := ℕ) (Val := Elt F) spec0 c from rfl]
    iintro ⟨-, -, Hr⟩
    iexact Hr
  hout c := by
    rw [Pipeline.ownSems0_none, show (dats m 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iexact Hr
  hexit c := by
    have hjoin := exit_bufs m c
    iintro ⟨Ha, HO, -, HZ⟩
    imodintro
    isplitr [HO]
    · iapply hjoin
      isplitl [Ha]; · iexact Ha
      iexact HZ
    · unfold Pipeline.Dat.owesAt Pipeline.owesWithin
      icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

set_option backward.isDefEq.respectTransparency.types false in
theorem run_main : θ_run defs (onTc (τ := τ) (main (F := F))) ⟨m, fun _ => 0, ρ⟩ (fun r => ∀ c : Dev nD,
      r.2.mem ((c.tc : Thread nD τ).loc main_v0) = finalOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  exact Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (EP (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (StableHlo.after hostOps1 (Vx m c)))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c.tc : Thread nD τ).loc main_v0) = finalOut m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4))
    (hfin := fun c s' => by
      rw [show StableHlo.held (c : Thread nD τ) (Pipeline.ucRefs τ sig) (StableHlo.after hostOps1 (Vx m c))
        = unscopedBufs c (fun b => StableHlo.after hostOps1 (Vx m c) b) from (Pipeline.unscopedBufs_held c _).symm]
      unfold unscopedBufs
      iintro ⟨Hh, HSI⟩
      ihave Hr := (pointsTo_read_all (Finset.univ.filter fun b : Ref sig .tc => ¬ b.isScoped) (fun b => (c.tc : Thread nD τ).loc b)
        (fun b => StableHlo.after hostOps1 (Vx m c) b) s') $$ [Hh HSI]
      · isplitl [Hh] <;> iassumption
      icases Hr with ⟨%hr, HSI⟩
      imodintro
      isplitr
      · ipureintro
        refine ⟨(hr main_v0 (by decide)).trans (out_final m c),
          (hr main_arg0 (by decide)).trans (arg_kept m c main_arg0 (by decide) (by decide) (by decide)),
          (hr main_arg1 (by decide)).trans (arg_kept m c main_arg1 (by decide) (by decide) (by decide)),
          (hr main_arg2 (by decide)).trans (arg_kept m c main_arg2 (by decide) (by decide) (by decide)),
          (hr main_arg3 (by decide)).trans (arg_kept m c main_arg3 (by decide) (by decide) (by decide)),
          (hr main_arg4 (by decide)).trans (arg_kept m c main_arg4 (by decide) (by decide) (by decide))⟩
      iexact HSI)
    (hQ := fun _ h => h)

end Cert.KernelIdeal.Hand

end
-- ==== Proof.Spec.lean ====
/-
  The result of one graph-convolution layer with mean aggregation, as a function of its five
  arrays, element by element, written in the two arrangements the two programs compute it in.

  With x the node features (10000 × 128), a the adjacency weights (10000 × 10000), d the node
  degrees (10000 × 1), w the layer's weights (128 × 128, output channel first) and b its bias:

    pooled(i, c) = s(i) · (Σ_j a(i,j)·x(j,c) + x(i,c)) + x(i,c)        with s(i) = 1 / d(i)
    result(i, o) = max(Σ_c pooled(i,c)·w(o,c) + b(o), 0)

  is the arrangement that scales the aggregated row once (`kernelForm`), and

    pooled(i, c) = Σ_j (r(i)·(a(i,j) + [i = j])·r(i))·x(j,c) + x(i,c)  with r(i) = 1 / √d(i)

  the one that normalises the matrix with self-loops entry by entry (`referenceForm`). Over finite
  reals with positive degrees r(i)·r(i) = 1 / d(i) and the sum distributes, so the two agree.
  The float literals 1.0 and 0.0 are kept as their binary words.
-/
import Idealize.ShloMosaic.PureOps.Ideal
import Idealize.ShloMosaic.Lib.ValueIdx

noncomputable section

namespace Cert.Proof.Spec

open Idealize.ShloMosaic Idealize.ShloMosaic.ValueIdx

abbrev SX : Shape := ⟨2, ![10000, 128]⟩
abbrev SA : Shape := ⟨2, ![10000, 10000]⟩
abbrev SD : Shape := ⟨2, ![10000, 1]⟩
abbrev SW : Shape := ⟨2, ![128, 128]⟩
abbrev SB : Shape := ⟨1, ![128]⟩

/-- The literal 1.0 and the literal 0.0, as the extended reals their words denote. -/
abbrev one : EReal := Ideal.ofBits .f32 0x3F800000#32
abbrev zero : EReal := Ideal.ofBits .f32 0x00000000#32

variable (x : SX.Idx → EReal) (a : SA.Idx → EReal) (d : SD.Idx → EReal) (w : SW.Idx → EReal) (b : SB.Idx → EReal)

/-- Row i of a·x at channel c. -/
def agg (i : Fin 10000) (c : Fin 128) : EReal := ∑ j : Fin 10000, a (ix2 i j) * x (ix2 j c)

/-- The pooled features, the aggregated row scaled once by the reciprocal degree. -/
def poolK (i : Fin 10000) (c : Fin 128) : EReal :=
  Ideal.div one (d (ix2 i (0 : Fin 1))) * (agg x a i c + x (ix2 i c)) + x (ix2 i c)

/-- The pooled features, the matrix with self-loops normalised entry by entry on both sides. -/
def poolR (i : Fin 10000) (c : Fin 128) : EReal :=
  (∑ j : Fin 10000, ((Ideal.rsqrt (d (ix2 i (0 : Fin 1))) * (a (ix2 i j) + (if j = i then one else 0))) * Ideal.rsqrt (d (ix2 i (0 : Fin 1)))) * x (ix2 j c))
    + x (ix2 i c)

/-- The layer's output from pooled features `p`: the linear map, the bias, the rectifier. -/
def layer (p : Fin 10000 → Fin 128 → EReal) (i : Fin 10000) (o : Fin 128) : EReal :=
  max ((∑ c : Fin 128, p i c * w (ix2 o c)) + b (ix1 o)) zero

def kernelForm (i : Fin 10000) (o : Fin 128) : EReal := layer w b (poolK x a d) i o
def referenceForm (i : Fin 10000) (o : Fin 128) : EReal := layer w b (poolR x a d) i o

end Cert.Proof.Spec

end
-- ==== Proof.KI.Payload.lean ====
/-
  The output block the body stores, read at an index: entry (h, r, o) of the block written at
  grid coordinate i is the layer's output for row r of half h's strip — the strip's 10000-long rows
  contracted against the resident features, the strip's own rows of the features added, the sum
  scaled by the reciprocal degree, the rows added again, then the linear map, the bias and the
  rectifier.
-/
import proofs.«172173_g23605140259235_cont_8to1_1967_13_alg».proof.Proof.KI.Out
import proofs.«172173_g23605140259235_cont_8to1_1967_13_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Idealize.ShloMosaic Idealize.ShloMosaic.TcCoe Idealize.ShloMosaic.ValueIdx
open Idealize.SL.Sem
open Cert.KernelIdeal Cert.KernelIdeal.Gen Cert.KernelIdeal.Hand
open Cert.Proof.Spec (one zero)

/-- The row of the feature matrix that row `r` of half `h`'s strip at grid coordinate `i` belongs to. -/
def xrow (i : grid0.Coords) (h : Fin 2) (r : Fin 200) : Fin 10000 :=
  ⟨5000 * h.val + 200 * (i 0).val + r.val, by
    have h25 : (i 0).val < 25 := (i 0).isLt
    have := h.isLt; have := r.isLt; omega⟩

/-- The reciprocal degrees: a cast to the same shape, then one over each entry. -/
private theorem inv_apply (dg : Vec Ideal S2x200x1 .f32) (h : Fin 2) (p : Fin 200) (z : Fin 1) :
    k0_pay3 (F := Ideal) dg (ix3 h p z) = Ideal.div one (dg (ix3 h p z)) := by
  unfold k0_pay3
  rw [shapeCast_self]
  rfl

/-- The bias row read on every row. -/
private theorem bias_apply (b : Vec Ideal S1x128 .f32) (p : Fin 200) (q : Fin 128) :
    broadcastTo S200x128 (shapeCast S1x128 b shapeCasts_S1x128_S1x128) broadcasts_S1x128_S200x128 (ix2 p q) = b (ix2 (0 : Fin 1) q) := by
  rw [shapeCast_self]
  exact broadcastTo_1b_ab_apply b broadcasts_S1x128_S200x128 p q

/-- One row of a stack of columns, spread over the 128 lanes: entry (p, q) is the column's entry p. -/
private theorem col_apply (o : Nat) (V : Vec Ideal S2x200x1 .f32) (hs : S2x200x1.Slices ![o, 0, 0] S1x200x1)
    (k : Fin 2) (hk : k.val = o) (p : Fin 200) (q : Fin 128) :
    broadcastTo S200x128 (shapeCast S200x1 (extractStridedSlice S1x200x1 ![o, 0, 0] V hs) shapeCasts_S1x200x1_S200x1)
        broadcasts_S200x1_S200x128 (ix2 p q) = V (ix3 k p (0 : Fin 1)) := by
  refine (broadcastTo_apply _ broadcasts_S200x1_S200x128 (ix2 p q) (ix2 p (0 : Fin 1)) fun ax => ?_).trans ?_
  · match ax with
    | ⟨0, _⟩ => rfl
    | ⟨1, _⟩ => rfl
  refine (shapeCast_1ab_ab_apply _ shapeCasts_S1x200x1_S200x1 p (0 : Fin 1)).trans ?_
  refine extractStridedSlice_apply _ V hs _ (ix3 k p (0 : Fin 1)) fun ax => ?_
  match ax with
  | ⟨0, _⟩ => show k.val = o + 0; omega
  | ⟨1, _⟩ => show p.val = 0 + p.val; omega
  | ⟨2, _⟩ => show (0 : Nat) = 0 + 0; rfl

/-- A load of a whole buffer reads the buffer. -/
private theorem ldX (x : Vec Ideal S10000x128 .f32) : View.ld x rX = x :=
  View.ld_unit_zero (funext fun a => by match a with | ⟨0, _⟩ => rfl | ⟨1, _⟩ => rfl) _ x

/-- The strip's own 200 rows of the features: row p of the load is row `xrow i h p` of the matrix. -/
private theorem ldXs (i : grid0.Coords) (h : Fin 2) (x : Vec Ideal S10000x128 .f32) (p : Fin 200) (q : Fin 128) :
    View.ld x (rXs i h) (ix2 p q) = x (ix2 (xrow i h p) q) := by
  show x ((rXs i h).idx (ix2 p q)) = _
  congr 1
  funext a
  refine Fin.ext ?_
  have e := k0_off1_eq i h
  match a with
  | ⟨0, _⟩ =>
    show k0_off1 i (BitVec.ofNat 32 (5000 * h.val)) 0 + 1 * p.val = 5000 * h.val + 200 * (i 0).val + p.val
    rw [e]; show 5000 * h.val + 200 * (i 0).val + 1 * p.val = _; omega
  | ⟨1, _⟩ =>
    show k0_off1 i (BitVec.ofNat 32 (5000 * h.val)) 1 + 1 * q.val = q.val
    rw [e]; show 0 + 1 * q.val = _; omega

/-! The long contraction: the strip's rows against the features. -/

private theorem lhs_agg_0 (j : S200x128.Idx) (q : dot_S200x10000_S10000x128_S200x128_1_0_0_1_n_n.contr.Idx) :
    (dot_S200x10000_S10000x128_S200x128_1_0_0_1_n_n.lhsIdx j q 0).val = (j 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
private theorem lhs_agg_1 (j : S200x128.Idx) (q : dot_S200x10000_S10000x128_S200x128_1_0_0_1_n_n.contr.Idx) :
    (dot_S200x10000_S10000x128_S200x128_1_0_0_1_n_n.lhsIdx j q 1).val = (q ⟨0, by decide⟩).val :=
  dot_S200x10000_S10000x128_S200x128_1_0_0_1_n_n.lhsIdx_val_of_single rfl j q
private theorem rhs_agg_0 (j : S200x128.Idx) (q : dot_S200x10000_S10000x128_S200x128_1_0_0_1_n_n.contr.Idx) :
    (dot_S200x10000_S10000x128_S200x128_1_0_0_1_n_n.rhsIdx j q 0).val = (q ⟨0, by decide⟩).val :=
  dot_S200x10000_S10000x128_S200x128_1_0_0_1_n_n.rhsIdx_val_of_single rfl j q
private theorem rhs_agg_1 (j : S200x128.Idx) (q : dot_S200x10000_S10000x128_S200x128_1_0_0_1_n_n.contr.Idx) :
    (dot_S200x10000_S10000x128_S200x128_1_0_0_1_n_n.rhsIdx j q 1).val = (j 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

/-- Entry (p, q) of the product into the zero accumulator: the sum over the 10000 columns. -/
private theorem agg_apply (A : FVec Ideal S200x10000 .bf16) (X : FVec Ideal S10000x128 .bf16) (p : Fin 200) (q : Fin 128) :
    matmul dot_S200x10000_S10000x128_S200x128_1_0_0_1_n_n none A X (constant (F := Ideal) S200x128 .f32 0x00000000#32) (ix2 p q)
      = ∑ k : Fin 10000, A (ix2 p k) * X (ix2 k q) := by
  simp only [matmul]
  rw [Ideal.matmul_constant_zero_apply, ← Equiv.sum_comp (ValueIdx.contrEquiv1 dot_S200x10000_S10000x128_S200x128_1_0_0_1_n_n 10000 rfl rfl).symm]
  refine Finset.sum_congr rfl fun k _ => ?_
  have hk := ValueIdx.contrEquiv1_symm_val dot_S200x10000_S10000x128_S200x128_1_0_0_1_n_n 10000 rfl rfl k
  have el : dot_S200x10000_S10000x128_S200x128_1_0_0_1_n_n.lhsIdx (ix2 p q) ((ValueIdx.contrEquiv1 dot_S200x10000_S10000x128_S200x128_1_0_0_1_n_n 10000 rfl rfl).symm k) = ix2 p k := funext fun a => Fin.ext (by
    match a with
    | ⟨0, _⟩ => exact lhs_agg_0 _ _
    | ⟨1, _⟩ => exact (lhs_agg_1 _ _).trans hk)
  have er : dot_S200x10000_S10000x128_S200x128_1_0_0_1_n_n.rhsIdx (ix2 p q) ((ValueIdx.contrEquiv1 dot_S200x10000_S10000x128_S200x128_1_0_0_1_n_n 10000 rfl rfl).symm k) = ix2 k q := funext fun a => Fin.ext (by
    match a with
    | ⟨0, _⟩ => exact (rhs_agg_0 _ _).trans hk
    | ⟨1, _⟩ => exact rhs_agg_1 _ _)
  rw [el, er]

/-! The short contraction: the pooled rows against the layer's weights. -/

private theorem lhs_lin_0 (j : S200x128.Idx) (q : dot_S200x128_S128x128_S200x128_1_0_0_1_n_n.contr.Idx) :
    (dot_S200x128_S128x128_S200x128_1_0_0_1_n_n.lhsIdx j q 0).val = (j 0).val := by
  unfold DotDims.lhsIdx
  rw [dif_neg (show ¬(0 : Fin S200x128.rank) ∈ dot_S200x128_S128x128_S200x128_1_0_0_1_n_n.lhsBatch by decide), dif_pos (show (0 : Fin S200x128.rank) ∈ dot_S200x128_S128x128_S200x128_1_0_0_1_n_n.lhsNonContracting by decide)]
  rfl
private theorem lhs_lin_1 (j : S200x128.Idx) (q : dot_S200x128_S128x128_S200x128_1_0_0_1_n_n.contr.Idx) :
    (dot_S200x128_S128x128_S200x128_1_0_0_1_n_n.lhsIdx j q 1).val = (q ⟨0, by decide⟩).val :=
  dot_S200x128_S128x128_S200x128_1_0_0_1_n_n.lhsIdx_val_of_single rfl j q
private theorem rhs_lin_0 (j : S200x128.Idx) (q : dot_S200x128_S128x128_S200x128_1_0_0_1_n_n.contr.Idx) :
    (dot_S200x128_S128x128_S200x128_1_0_0_1_n_n.rhsIdx j q 0).val = (q ⟨0, by decide⟩).val :=
  dot_S200x128_S128x128_S200x128_1_0_0_1_n_n.rhsIdx_val_of_single rfl j q
private theorem rhs_lin_1 (j : S200x128.Idx) (q : dot_S200x128_S128x128_S200x128_1_0_0_1_n_n.contr.Idx) :
    (dot_S200x128_S128x128_S200x128_1_0_0_1_n_n.rhsIdx j q 1).val = (j 1).val := by
  unfold DotDims.rhsIdx
  rw [dif_neg (show ¬(1 : Fin S128x128.rank) ∈ dot_S200x128_S128x128_S200x128_1_0_0_1_n_n.rhsBatch by decide), dif_pos (show (1 : Fin S128x128.rank) ∈ dot_S200x128_S128x128_S200x128_1_0_0_1_n_n.rhsNonContracting by decide)]
  rfl

/-- Entry (p, q) of the product into the zero accumulator: the sum over the 128 channels. -/
private theorem lin_apply (L : FVec Ideal S200x128 .f32) (W : FVec Ideal S128x128 .f32) (p : Fin 200) (q : Fin 128) :
    matmul dot_S200x128_S128x128_S200x128_1_0_0_1_n_n none L W (constant (F := Ideal) S200x128 .f32 0x00000000#32) (ix2 p q)
      = ∑ c : Fin 128, L (ix2 p c) * W (ix2 c q) := by
  simp only [matmul]
  rw [Ideal.matmul_constant_zero_apply, ← Equiv.sum_comp (ValueIdx.contrEquiv1 dot_S200x128_S128x128_S200x128_1_0_0_1_n_n 128 rfl rfl).symm]
  refine Finset.sum_congr rfl fun k _ => ?_
  have hk := ValueIdx.contrEquiv1_symm_val dot_S200x128_S128x128_S200x128_1_0_0_1_n_n 128 rfl rfl k
  have el : dot_S200x128_S128x128_S200x128_1_0_0_1_n_n.lhsIdx (ix2 p q) ((ValueIdx.contrEquiv1 dot_S200x128_S128x128_S200x128_1_0_0_1_n_n 128 rfl rfl).symm k) = ix2 p k := funext fun a => Fin.ext (by
    match a with
    | ⟨0, _⟩ => exact lhs_lin_0 _ _
    | ⟨1, _⟩ => exact (lhs_lin_1 _ _).trans hk)
  have er : dot_S200x128_S128x128_S200x128_1_0_0_1_n_n.rhsIdx (ix2 p q) ((ValueIdx.contrEquiv1 dot_S200x128_S128x128_S200x128_1_0_0_1_n_n 128 rfl rfl).symm k) = ix2 k q := funext fun a => Fin.ext (by
    match a with
    | ⟨0, _⟩ => exact (rhs_lin_0 _ _).trans hk
    | ⟨1, _⟩ => exact rhs_lin_1 _ _)
  rw [el, er]

/-- The aggregation as the body writes it: both operands narrowed (the identity on extended reals), contracted. -/
private theorem agg5_apply (x : Vec Ideal S10000x128 .f32) (A : Vec Ideal S200x10000 .f32) (p : Fin 200) (q : Fin 128) :
    k0_pay5 (F := Ideal) x A (ix2 p q) = ∑ j : Fin 10000, A (ix2 p j) * x (ix2 j q) := by
  unfold k0_pay5 k0_pay2
  exact agg_apply _ _ p q

/-- The chain from the aggregated block to the stored block, read at (u, p, q): add the strip's rows, scale by the
    row's entry of half `k` of the column stack, add the rows again, the linear map, the bias, the rectifier. -/
private theorem core_apply (o : Nat) (hs : S2x200x1.Slices ![o, 0, 0] S1x200x1) (k : Fin 2) (hk : k.val = o)
    (INV : FVec Ideal S2x200x1 .f32) (MM XS : FVec Ideal S200x128 .f32) (W : FVec Ideal S128x128 .f32) (B : FVec Ideal S1x128 .f32)
    (u : Fin 1) (p : Fin 200) (q : Fin 128) :
    shapeCast S1x200x128
        (maximumf
          (addf
            (matmul dot_S200x128_S128x128_S200x128_1_0_0_1_n_n none
              (addf (mulf (broadcastTo S200x128 (shapeCast S200x1 (extractStridedSlice S1x200x1 ![o, 0, 0] INV hs) shapeCasts_S1x200x1_S200x1) broadcasts_S200x1_S200x128) (addf MM XS)) XS)
              (shapeCast S128x128 W shapeCasts_S128x128_S128x128) (constant (F := Ideal) S200x128 .f32 0x00000000#32))
            (broadcastTo S200x128 (shapeCast S1x128 B shapeCasts_S1x128_S1x128) broadcasts_S1x128_S200x128))
          (broadcast S200x128 (Scalar.ofBits (F := Ideal) .f32 0x00000000#32)))
        shapeCasts_S200x128_S1x200x128 (ix3 u p q)
      = max ((∑ c : Fin 128, (INV (ix3 k p (0 : Fin 1)) * (MM (ix2 p c) + XS (ix2 p c)) + XS (ix2 p c)) * W (ix2 c q))
              + B (ix2 (0 : Fin 1) q)) zero := by
  refine (shapeCast_ab_1ab_apply _ shapeCasts_S200x128_S1x200x128 u p q).trans ?_
  rw [maximumf_apply, addf_apply, bias_apply, broadcast_apply, lin_apply, shapeCast_self]
  refine congrArg₂ max (congrArg (· + B (ix2 (0 : Fin 1) q)) (Finset.sum_congr rfl fun c _ => ?_)) rfl
  rw [addf_apply, mulf_apply, addf_apply, col_apply o INV hs k hk p c]

/-! The loads through whole-buffer rectangles read the buffers. -/

private theorem ldA (a : Vec Ideal S200x10000 .f32) : View.ld a rA0 = a :=
  View.ld_unit_zero (funext fun ax => by match ax with | ⟨0, _⟩ => rfl | ⟨1, _⟩ => rfl) _ a
private theorem ldD (dg : Vec Ideal S2x200x1 .f32) : View.ld dg rD = dg :=
  View.ld_unit_zero (funext fun ax => by match ax with | ⟨0, _⟩ => rfl | ⟨1, _⟩ => rfl | ⟨2, _⟩ => rfl) _ dg
private theorem ldW (wt : Vec Ideal S128x128 .f32) : View.ld wt rW = wt :=
  View.ld_unit_zero (funext fun ax => by match ax with | ⟨0, _⟩ => rfl | ⟨1, _⟩ => rfl) _ wt
private theorem ldB (b : Vec Ideal S1x128 .f32) : View.ld b rB = b :=
  View.ld_unit_zero (funext fun ax => by match ax with | ⟨0, _⟩ => rfl | ⟨1, _⟩ => rfl) _ b

/-- The value stored for the top half, read at (u, p, q). -/
private theorem pay0_apply (i : grid0.Coords) (a0 : Vec Ideal S200x10000 .f32) (x : Vec Ideal S10000x128 .f32)
    (dg : Vec Ideal S2x200x1 .f32) (wt : Vec Ideal S128x128 .f32) (b : Vec Ideal S1x128 .f32)
    (u : Fin 1) (p : Fin 200) (q : Fin 128) :
    pay0 (F := Ideal) i a0 x dg wt b (ix3 u p q)
      = max ((∑ c : Fin 128,
              (Ideal.div one (dg (ix3 (0 : Fin 2) p (0 : Fin 1)))
                  * ((∑ j : Fin 10000, a0 (ix2 p j) * x (ix2 j c)) + x (ix2 (xrow i 0 p) c))
                + x (ix2 (xrow i 0 p) c)) * wt (ix2 c q))
            + b (ix2 (0 : Fin 1) q)) zero := by
  unfold pay0
  rw [ldX, ldD, ldA, ldW, ldB]
  refine (core_apply 0 slices_S2x200x1_o0_0_0_S1x200x1 (0 : Fin 2) rfl (k0_pay3 (F := Ideal) dg) (k0_pay5 (F := Ideal) x a0)
    (View.ld x (rXs i 0)) wt b u p q).trans ?_
  refine congrArg₂ max (congrArg (· + b (ix2 (0 : Fin 1) q)) (Finset.sum_congr rfl fun c _ => ?_)) rfl
  rw [inv_apply, agg5_apply, ldXs]

/-- The value stored for the bottom half, read at (u, p, q). -/
private theorem pay1_apply (i : grid0.Coords) (a1 : Vec Ideal S200x10000 .f32) (x : Vec Ideal S10000x128 .f32)
    (dg : Vec Ideal S2x200x1 .f32) (wt : Vec Ideal S128x128 .f32) (b : Vec Ideal S1x128 .f32)
    (u : Fin 1) (p : Fin 200) (q : Fin 128) :
    pay1 (F := Ideal) i a1 x dg wt b (ix3 u p q)
      = max ((∑ c : Fin 128,
              (Ideal.div one (dg (ix3 (1 : Fin 2) p (0 : Fin 1)))
                  * ((∑ j : Fin 10000, a1 (ix2 p j) * x (ix2 j c)) + x (ix2 (xrow i 1 p) c))
                + x (ix2 (xrow i 1 p) c)) * wt (ix2 c q))
            + b (ix2 (0 : Fin 1) q)) zero := by
  unfold pay1
  rw [ldX, ldD, ldA, ldW, ldB]
  refine (core_apply 1 slices_S2x200x1_o1_0_0_S1x200x1 (1 : Fin 2) rfl (k0_pay3 (F := Ideal) dg) (k0_pay5 (F := Ideal) x a1)
    (View.ld x (rXs i 1)) wt b u p q).trans ?_
  refine congrArg₂ max (congrArg (· + b (ix2 (0 : Fin 1) q)) (Finset.sum_congr rfl fun c _ => ?_)) rfl
  rw [inv_apply, agg5_apply, ldXs]

/-- Where the two halves of the output block sit in it. -/
private theorem emb_rO0 (r : Fin 200) (o : Fin 128) : rO0.emb (ix3 (0 : Fin 1) r o) = ix3 (0 : Fin 2) r o :=
  funext fun ax => Fin.ext (by
    match ax with
    | ⟨0, _⟩ => rfl
    | ⟨1, _⟩ => show 0 + 1 * r.val = r.val; omega
    | ⟨2, _⟩ => show 0 + 1 * o.val = o.val; omega)
private theorem emb_rO1 (r : Fin 200) (o : Fin 128) : rO1.emb (ix3 (0 : Fin 1) r o) = ix3 (1 : Fin 2) r o :=
  funext fun ax => Fin.ext (by
    match ax with
    | ⟨0, _⟩ => rfl
    | ⟨1, _⟩ => show 0 + 1 * r.val = r.val; omega
    | ⟨2, _⟩ => show 0 + 1 * o.val = o.val; omega)

theorem out6_apply (i : grid0.Coords) (a0 a1 : Vec Ideal S200x10000 .f32) (x : Vec Ideal S10000x128 .f32)
    (dg : Vec Ideal S2x200x1 .f32) (wt : Vec Ideal S128x128 .f32) (b : Vec Ideal S1x128 .f32)
    (h : Fin 2) (r : Fin 200) (o : Fin 128) :
    out6 (F := Ideal) i a0 a1 x dg wt b (ix3 h r o)
      = max ((∑ c : Fin 128,
              (Ideal.div one (dg (ix3 h r (0 : Fin 1)))
                  * ((∑ j : Fin 10000, (if h = 0 then a0 else a1) (ix2 r j) * x (ix2 j c)) + x (ix2 (xrow i h r) c))
                + x (ix2 (xrow i h r) c)) * wt (ix2 c o))
            + b (ix2 (0 : Fin 1) o)) zero := by
  revert h
  rw [Fin.forall_fin_two]
  refine ⟨?_, ?_⟩
  · -- the top half lies off the later store's rectangle and under the earlier one's
    unfold out6
    rw [View.canon_cons_of_not_mem _ _ (by
      rw [Rect.mem_set_unit]
      intro hm
      have h10 : (1 : Nat) ≤ 0 := (hm 0).1
      omega)]
    rw [← emb_rO0 r o, View.canon_cons_emb, pay0_apply, if_pos rfl]
  · -- the bottom half lies under the later store's rectangle
    unfold out6
    rw [← emb_rO1 r o, View.canon_cons_emb, pay1_apply, if_neg (by decide)]

end Cert.KernelIdeal.HandValue

end
-- ==== Proof.KI.Value.lean ====
/-
  The kernel's result at the ideal instance, element by element: entry (i, o) of the re-laid output
  is the layer's output for node i and channel o in the arrangement that scales the aggregated row.
-/
import proofs.«172173_g23605140259235_cont_8to1_1967_13_alg».proof.Proof.KI.Dats
import proofs.«172173_g23605140259235_cont_8to1_1967_13_alg».proof.Proof.KI.Payload
import proofs.«172173_g23605140259235_cont_8to1_1967_13_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.HandValue

open Idealize.ShloMosaic Idealize.ShloMosaic.TcCoe Idealize.ShloMosaic.ValueIdx
open Idealize.SL.Sem
open Cert.KernelIdeal Cert.KernelIdeal.Gen Cert.KernelIdeal.Hand

variable (m : (ℓ : Loc nD τ sig) → Buf (Elt Ideal) ℓ)

/-! ## The arrays as the region finds them -/

/-- The two launch arrays the kernel reads directly reach the region unchanged, -/
theorem V_arg0 (c : Dev nD) : (V m c main_arg0 : S10000x128.Idx → EReal) = m ((c.tc : Thread nD τ).loc main_arg0) := by
  dsimp only [V]; after_results

theorem V_arg1 (c : Dev nD) : (V m c main_arg1 : S10000x10000.Idx → EReal) = m ((c.tc : Thread nD τ).loc main_arg1) := by
  dsimp only [V]; after_results

/-- the weights arrive transposed, -/
theorem V_v0 (c : Dev nD) : (V m c main_call0_v0 : S128x128.Idx → EReal)
    = transpose S128x128 [1, 0] (m ((c.tc : Thread nD τ).loc main_arg3)) transposes_S128x128_S128x128_1_0 := by
  dsimp only [V]; after_results; rfl

/-- the bias as a one-row matrix, -/
theorem V_v1 (c : Dev nD) : (V m c main_call0_v1 : S1x128.Idx → EReal)
    = shapeCast S1x128 (m ((c.tc : Thread nD τ).loc main_arg4)) shapeCasts_S128_S1x128 := by
  dsimp only [V]; after_results; rfl

/-- and the degree column cut into its two halves. -/
theorem V_v2 (c : Dev nD) : (V m c main_call0_v2 : S2x5000x1.Idx → EReal)
    = shapeCast S2x5000x1 (m ((c.tc : Thread nD τ).loc main_arg2)) shapeCasts_S10000x1_S2x5000x1 := by
  dsimp only [V]; after_results; rfl

/-! ## The windows' blocks as pieces of their arrays -/

/-- The printed index maps over the grid: which block of its array each window holds at point t. -/
theorem idx_facts : ∀ t : Fin cfg0.N,
      win0_0.index t (0 : Fin 2) = t.val ∧ win0_0.index t (1 : Fin 2) = 0
    ∧ win0_1.index t (0 : Fin 2) = 25 + t.val ∧ win0_1.index t (1 : Fin 2) = 0
    ∧ win0_2.index t (0 : Fin 2) = 0 ∧ win0_2.index t (1 : Fin 2) = 0
    ∧ win0_3.index t (0 : Fin 3) = 0 ∧ win0_3.index t (1 : Fin 3) = t.val ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = 0 ∧ win0_6.index t (1 : Fin 3) = t.val ∧ win0_6.index t (2 : Fin 3) = 0
    ∧ (grid0.coords t 0).val = t.val ∧ t.val < 25 :=
  (by decide +kernel : ∀ t : Fin grid0.N, _)

/-- Window 0's block at point t is rows 200·t … 200·t + 199 of the adjacency matrix, -/
theorem iblk0_apply (c : Dev nD) (t : Fin cfg0.N) (r : Fin 200) (j : Fin 10000) (k : Fin 10000)
    (hk : k.val = 200 * t.val + r.val) :
    (iblk m c 0 t : Vec Ideal S200x10000 .f32) (ix2 r j)
      = (m ((c.tc : Thread nD τ).loc main_arg1) : S10000x10000.Idx → EReal) (ix2 k j) := by
  obtain ⟨e0, e1, -⟩ := idx_facts t
  rw [← V_arg1 m c]
  show V m c main_arg1 (((cfg0.win 0).blk t).view.emb (ix2 r j)) = V m c main_arg1 (ix2 k j)
  refine congrArg (V m c main_arg1) ?_
  funext a
  apply Fin.ext
  match a with
  | ⟨0, _⟩ => show win0_0.index t (0 : Fin 2) * 200 + 1 * r.val = k.val; omega
  | ⟨1, _⟩ => show win0_0.index t (1 : Fin 2) * 10000 + 1 * j.val = j.val; omega

/-- and window 1's the same rows of the matrix's bottom half. -/
theorem iblk1_apply (c : Dev nD) (t : Fin cfg0.N) (r : Fin 200) (j : Fin 10000) (k : Fin 10000)
    (hk : k.val = 5000 + 200 * t.val + r.val) :
    (iblk m c 1 t : Vec Ideal S200x10000 .f32) (ix2 r j)
      = (m ((c.tc : Thread nD τ).loc main_arg1) : S10000x10000.Idx → EReal) (ix2 k j) := by
  obtain ⟨-, -, e0, e1, -⟩ := idx_facts t
  rw [← V_arg1 m c]
  show V m c main_arg1 (((cfg0.win 1).blk t).view.emb (ix2 r j)) = V m c main_arg1 (ix2 k j)
  refine congrArg (V m c main_arg1) ?_
  funext a
  apply Fin.ext
  match a with
  | ⟨0, _⟩ => show win0_1.index t (0 : Fin 2) * 200 + 1 * r.val = k.val; omega
  | ⟨1, _⟩ => show win0_1.index t (1 : Fin 2) * 10000 + 1 * j.val = j.val; omega

/-- Window 2 holds the whole feature matrix at every point. -/
theorem iblk2_apply (c : Dev nD) (t : Fin cfg0.N) (j : Fin 10000) (q : Fin 128) :
    (iblk m c 2 t : Vec Ideal S10000x128 .f32) (ix2 j q)
      = (m ((c.tc : Thread nD τ).loc main_arg0) : S10000x128.Idx → EReal) (ix2 j q) := by
  obtain ⟨-, -, -, -, e0, e1, -⟩ := idx_facts t
  rw [← V_arg0 m c]
  show V m c main_arg0 (((cfg0.win 2).blk t).view.emb (ix2 j q)) = V m c main_arg0 (ix2 j q)
  refine congrArg (V m c main_arg0) ?_
  funext a
  apply Fin.ext
  match a with
  | ⟨0, _⟩ => show win0_2.index t (0 : Fin 2) * 10000 + 1 * j.val = j.val; omega
  | ⟨1, _⟩ => show win0_2.index t (1 : Fin 2) * 128 + 1 * q.val = q.val; omega

/-- Window 3's block at point t is rows 200·t … of both halves of the degree column: entry (h, r) is the
    degree of node 5000·h + 200·t + r. -/
theorem iblk3_apply (c : Dev nD) (t : Fin cfg0.N) (h : Fin 2) (r : Fin 200) (u : Fin 1) (i : Fin 10000)
    (hi : i.val = 5000 * h.val + 200 * t.val + r.val) :
    (iblk m c 3 t : Vec Ideal S2x200x1 .f32) (ix3 h r u)
      = (m ((c.tc : Thread nD τ).loc main_arg2) : S10000x1.Idx → EReal) (ix2 i u) := by
  obtain ⟨-, -, -, -, -, -, e0, e1, e2, -, -, -, -, -, -, -, -, ht⟩ := idx_facts t
  have hk : 200 * t.val + r.val < 5000 := by omega
  show V m c main_call0_v2 (((cfg0.win 3).blk t).view.emb (ix3 h r u)) = _
  have e : ((cfg0.win 3).blk t).view.emb (ix3 h r u) = ix3 h (⟨200 * t.val + r.val, hk⟩ : Fin 5000) u := by
    funext a
    apply Fin.ext
    match a with
    | ⟨0, _⟩ => show win0_3.index t (0 : Fin 3) * 2 + 1 * h.val = h.val; omega
    | ⟨1, _⟩ => show win0_3.index t (1 : Fin 3) * 200 + 1 * r.val = 200 * t.val + r.val; omega
    | ⟨2, _⟩ => show win0_3.index t (2 : Fin 3) * 1 + 1 * u.val = u.val; omega
  refine (congrArg (V m c main_call0_v2) e).trans ?_
  rw [V_v2]
  refine shapeCast_apply _ _ _ _ ?_
  show (S10000x1.rowMajor (ix2 i u)).val = (S2x5000x1.rowMajor (ix3 h (⟨200 * t.val + r.val, hk⟩ : Fin 5000) u)).val
  rw [Shape.rowMajor_val_two, Shape.rowMajor_val_three]
  show i.val * 1 + u.val = (h.val * 5000 + (200 * t.val + r.val)) * 1 + u.val
  omega

/-- Window 4 holds the whole transposed weight matrix: entry (q, o) is the weight of input channel q in output o. -/
theorem iblk4_apply (c : Dev nD) (t : Fin cfg0.N) (q : Fin 128) (o : Fin 128) :
    (iblk m c 4 t : Vec Ideal S128x128 .f32) (ix2 q o)
      = (m ((c.tc : Thread nD τ).loc main_arg3) : S128x128.Idx → EReal) (ix2 o q) := by
  obtain ⟨-, -, -, -, -, -, -, -, -, e0, e1, -⟩ := idx_facts t
  show V m c main_call0_v0 (((cfg0.win 4).blk t).view.emb (ix2 q o)) = _
  have e : ((cfg0.win 4).blk t).view.emb (ix2 q o) = ix2 q o := by
    funext a
    apply Fin.ext
    match a with
    | ⟨0, _⟩ => show win0_4.index t (0 : Fin 2) * 128 + 1 * q.val = q.val; omega
    | ⟨1, _⟩ => show win0_4.index t (1 : Fin 2) * 128 + 1 * o.val = o.val; omega
  refine (congrArg (V m c main_call0_v0) e).trans ?_
  rw [V_v0]
  exact transpose_ix2_apply _ _ q o

/-- Window 5 holds the bias as a one-row matrix. -/
theorem iblk5_apply (c : Dev nD) (t : Fin cfg0.N) (u : Fin 1) (o : Fin 128) :
    (iblk m c 5 t : Vec Ideal S1x128 .f32) (ix2 u o)
      = (m ((c.tc : Thread nD τ).loc main_arg4) : S128.Idx → EReal) (ix1 o) := by
  obtain ⟨-, -, -, -, -, -, -, -, -, -, -, e0, e1, -⟩ := idx_facts t
  show V m c main_call0_v1 (((cfg0.win 5).blk t).view.emb (ix2 u o)) = _
  have e : ((cfg0.win 5).blk t).view.emb (ix2 u o) = ix2 u o := by
    funext a
    apply Fin.ext
    match a with
    | ⟨0, _⟩ => show win0_5.index t (0 : Fin 2) * 1 + 1 * u.val = u.val; omega
    | ⟨1, _⟩ => show win0_5.index t (1 : Fin 2) * 128 + 1 * o.val = o.val; omega
  refine (congrArg (V m c main_call0_v1) e).trans ?_
  rw [V_v1]
  exact shapeCast_a_1a_apply _ _ u o

/-! ## One entry of a stored block -/

/-- An entry of the block stored at a grid point is the layer's output for its node, once each block the body
    loaded is read as the piece of its array that it is. -/
theorem point_eq (X : Cert.Proof.Spec.SX.Idx → EReal) (A : Cert.Proof.Spec.SA.Idx → EReal) (D : Cert.Proof.Spec.SD.Idx → EReal)
    (W : Cert.Proof.Spec.SW.Idx → EReal) (B : Cert.Proof.Spec.SB.Idx → EReal)
    (gi : grid0.Coords) (a0 a1 : Vec Ideal S200x10000 .f32) (x : Vec Ideal S10000x128 .f32)
    (dg : Vec Ideal S2x200x1 .f32) (wt : Vec Ideal S128x128 .f32) (b : Vec Ideal S1x128 .f32)
    (h : Fin 2) (r : Fin 200) (o : Fin 128) (i : Fin 10000)
    (hi : xrow gi h r = i)
    (hx : ∀ (j : Fin 10000) (q : Fin 128), x (ix2 j q) = X (ix2 j q))
    (ha : ∀ j : Fin 10000, (if h = 0 then a0 else a1) (ix2 r j) = A (ix2 i j))
    (hd : dg (ix3 h r (0 : Fin 1)) = D (ix2 i (0 : Fin 1)))
    (hw : ∀ q : Fin 128, wt (ix2 q o) = W (ix2 o q))
    (hb : b (ix2 (0 : Fin 1) o) = B (ix1 o)) :
    out6 (F := Ideal) gi a0 a1 x dg wt b (ix3 h r o) = Cert.Proof.Spec.kernelForm X A D W B i o := by
  rw [out6_apply, hi, hd, hb]
  unfold Cert.Proof.Spec.kernelForm Cert.Proof.Spec.layer Cert.Proof.Spec.poolK Cert.Proof.Spec.agg
  simp only [hx, ha, hw]

/-! ## From the stored blocks to the array -/

/-- The node that row p of half h stands for. -/
def node (h : Fin 2) (p : Fin 5000) : Fin 10000 :=
  ⟨5000 * h.val + p.val, by have := h.isLt; have := p.isLt; omega⟩

/-- The output array as one function of the launch arrays: entry (h, p, o) is the layer's output for node
    5000·h + p and channel o. -/
def G (c : Dev nD) : S2x5000x128.Idx → EReal := fun k =>
  Cert.Proof.Spec.kernelForm (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (node (k 0) (k 1)) (k 2)

/-- An entry of the output block at point t sits in the array in row 200·t + r of its half. -/
theorem emb6 (t : Fin cfg0.N) (h : Fin 2) (r : Fin 200) (o : Fin 128) (p : Fin 5000) (hp : p.val = 200 * t.val + r.val) :
    ((cfg0.win 6).blk t).view.emb (ix3 h r o) = ix3 h p o := by
  obtain ⟨-, -, -, -, -, -, -, -, -, -, -, -, -, e0, e1, e2, -⟩ := idx_facts t
  funext a
  apply Fin.ext
  match a with
  | ⟨0, _⟩ => show win0_6.index t (0 : Fin 3) * 2 + 1 * h.val = h.val; omega
  | ⟨1, _⟩ => show win0_6.index t (1 : Fin 3) * 200 + 1 * r.val = p.val; omega
  | ⟨2, _⟩ => show win0_6.index t (2 : Fin 3) * 128 + 1 * o.val = o.val; omega

/-- On entries the function is the layer's output by definition. -/
theorem G_apply (c : Dev nD) (h : Fin 2) (p : Fin 5000) (o : Fin 128) :
    G m c (ix3 h p o)
      = Cert.Proof.Spec.kernelForm (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (node h p) o := rfl

/-- The staging buffer of the output window after the body at point t holds the two stored halves. -/
theorem after6_eq (c : Dev nD) (t : Fin cfg0.N) :
    (dats m 0 c).after 6 t
      = out6 (F := Ideal) (grid0.coords t) (iblk m c 0 t) (iblk m c 1 t) (iblk m c 2 t) (iblk m c 3 t) (iblk m c 4 t) (iblk m c 5 t) := by
  dsimp only [dats]

/-- The output block is written back whole. -/
theorem cut6_apply (t : Fin cfg0.N) (X : Vec Ideal S2x200x128 .f32) (y : S2x200x128.Idx) :
    (cfg0.win 6).cut (grid0.coords t) X y = X y := by
  refine congrArg X ?_
  funext a
  apply Fin.ext
  rfl

/-- A block of the output array read at an entry is the array at the entry's place. -/
theorem read6_apply (t : Fin cfg0.N) (g : S2x5000x128.Idx → EReal) (y : S2x200x128.Idx) :
    ((cfg0.win 6).blk t).view.read (Elt Ideal) g y = g (((cfg0.win 6).blk t).view.emb y) := rfl

/-- What point t writes back is block t of that one function. -/
theorem flushed6_eq (c : Dev nD) (t : Fin cfg0.N) :
    (dats m 0 c).flushed 6 t = ((cfg0.win 6).blk t).view.read (Elt Ideal) (G m c) := by
  show (cfg0.win 6).cut (grid0.coords t) ((dats m 0 c).after 6 t) = _
  rw [after6_eq]
  obtain ⟨-, -, -, -, -, -, -, -, -, -, -, -, -, -, -, -, eg, ht⟩ := idx_facts t
  funext y
  obtain ⟨h, r, o, rfl⟩ : ∃ (h : Fin 2) (r : Fin 200) (o : Fin 128), y = ix3 h r o := ⟨y 0, y 1, y 2, eq_ix3 y⟩
  have hh := h.isLt
  have hr := r.isLt
  refine ((cut6_apply t _ (ix3 h r o)).trans ?_).trans (read6_apply t (G m c) (ix3 h r o)).symm
  rw [emb6 t h r o ⟨200 * t.val + r.val, by omega⟩ rfl, G_apply]
  refine point_eq _ _ _ _ _ (grid0.coords t) (iblk m c 0 t) (iblk m c 1 t) (iblk m c 2 t) (iblk m c 3 t) (iblk m c 4 t) (iblk m c 5 t)
    h r o _ ?_ (fun j q => iblk2_apply m c t j q) ?_ ?_ (fun q => iblk4_apply m c t q o) (iblk5_apply m c t 0 o)
  · apply Fin.ext
    show 5000 * h.val + 200 * (grid0.coords t 0).val + r.val = 5000 * h.val + (200 * t.val + r.val)
    omega
  · intro j
    by_cases h0 : h = 0
    · rw [if_pos h0]
      refine iblk0_apply m c t r j _ ?_
      have : h.val = 0 := congrArg Fin.val h0
      show 5000 * h.val + (200 * t.val + r.val) = 200 * t.val + r.val
      omega
    · rw [if_neg h0]
      refine iblk1_apply m c t r j _ ?_
      have : h.val ≠ 0 := fun e => h0 (Fin.ext e)
      show 5000 * h.val + (200 * t.val + r.val) = 5000 + 200 * t.val + r.val
      omega
  · refine iblk3_apply m c t h r 0 _ ?_
    show 5000 * h.val + (200 * t.val + r.val) = 5000 * h.val + 200 * t.val + r.val
    omega

/-- An index of the array is in point t's block iff each coordinate is in the block's range on its axis. -/
theorem mem_blk6 (t : Fin cfg0.N) (i : S2x5000x128.Idx) :
    i ∈ ((cfg0.win 6).blk t).view.set ↔ ∀ a : Fin 3, win0_6.index t a * S2x200x128.size a ≤ (i a).val ∧ (i a).val < win0_6.index t a * S2x200x128.size a + S2x200x128.size a := by
  show i ∈ ((View.whole main_call0_v3).slice (win0_6.rect t)).set ↔ _
  rw [View.set_slice_whole, Rect.mem_set_unit]
  exact Iff.rfl

/-- Every entry of the array is in some point's block: row p of either half in the block of point p / 200. -/
theorem covered6 (i : S2x5000x128.Idx) :
    ∃ t : Fin cfg0.N, (cfg0.win 6).flush t = true ∧ i ∈ ((cfg0.win 6).blk t).view.set := by
  have h0 : (i 0).val < 2 := (i 0).isLt
  have h1 : (i 1).val < 5000 := (i 1).isLt
  have h2 : (i 2).val < 128 := (i 2).isLt
  have hN : (i 1).val / 200 < cfg0.N := by
    have : (i 1).val / 200 < 25 := by omega
    exact Nat.lt_of_lt_of_eq this N_0.symm
  obtain ⟨-, -, -, -, -, -, -, -, -, -, -, -, -, e0, e1, e2, -⟩ := idx_facts ⟨(i 1).val / 200, hN⟩
  refine ⟨⟨(i 1).val / 200, hN⟩, flush0_6 _, ?_⟩
  rw [mem_blk6]
  have e1' : win0_6.index ⟨(i 1).val / 200, hN⟩ (1 : Fin 3) = (i 1).val / 200 := e1
  intro a
  match a with
  | ⟨0, _⟩ =>
    show win0_6.index ⟨(i 1).val / 200, hN⟩ (0 : Fin 3) * 2 ≤ (i 0).val ∧ (i 0).val < win0_6.index ⟨(i 1).val / 200, hN⟩ (0 : Fin 3) * 2 + 2
    omega
  | ⟨1, _⟩ =>
    show win0_6.index ⟨(i 1).val / 200, hN⟩ (1 : Fin 3) * 200 ≤ (i 1).val ∧ (i 1).val < win0_6.index ⟨(i 1).val / 200, hN⟩ (1 : Fin 3) * 200 + 200
    omega
  | ⟨2, _⟩ =>
    show win0_6.index ⟨(i 1).val / 200, hN⟩ (2 : Fin 3) * 128 ≤ (i 2).val ∧ (i 2).val < win0_6.index ⟨(i 1).val / 200, hN⟩ (2 : Fin 3) * 128 + 128
    omega

/-- So the array after the last point is that function. -/
theorem outArr_eq (c : Dev nD) : outArr (F := Ideal) m c = G m c :=
  (dats m 0 c).arrAt_eq_of_cover 6 (G m c) (fun t _ => flushed6_eq m c t) covered6

/-! ## The result -/

theorem finalOut_eq (c : Dev nD) (i : Fin 10000) (o : Fin 128) :
    finalOut (F := Ideal) m c (ix2 i o)
      = Cert.Proof.Spec.kernelForm (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) i o := by
  have hi := i.isLt
  -- the re-laying reads row i of the result at row i % 5000 of half i / 5000
  have e1 : finalOut (F := Ideal) m c (ix2 i o)
      = outArr (F := Ideal) m c (ix3 (⟨i.val / 5000, by omega⟩ : Fin 2) (⟨i.val % 5000, by omega⟩ : Fin 5000) o) := by
    unfold finalOut
    refine shapeCast_apply _ _ _ _ ?_
    show (S2x5000x128.rowMajor (ix3 (⟨i.val / 5000, by omega⟩ : Fin 2) (⟨i.val % 5000, by omega⟩ : Fin 5000) o)).val
      = (S10000x128.rowMajor (ix2 i o)).val
    rw [Shape.rowMajor_val_three, Shape.rowMajor_val_two]
    show (i.val / 5000 * 5000 + i.val % 5000) * 128 + o.val = i.val * 128 + o.val
    omega
  have e2 : node (⟨i.val / 5000, by omega⟩ : Fin 2) (⟨i.val % 5000, by omega⟩ : Fin 5000) = i := by
    apply Fin.ext
    show 5000 * (i.val / 5000) + i.val % 5000 = i.val
    omega
  rw [e1, outArr_eq m c]
  show Cert.Proof.Spec.kernelForm _ _ _ _ _ (node (⟨i.val / 5000, by omega⟩ : Fin 2) (⟨i.val % 5000, by omega⟩ : Fin 5000)) o = _
  rw [e2]

end Cert.KernelIdeal.HandValue

end
-- ==== Proof.RefValue.lean ====
/-
  The reference's result, element by element: entry (i, o) is the layer's output in the
  arrangement that normalises the adjacency matrix with self-loops entry by entry.
-/
import proofs.«172173_g23605140259235_cont_8to1_1967_13_alg».proof.Proof.Gen.ReferenceIdeal.Read
import proofs.«172173_g23605140259235_cont_8to1_1967_13_alg».proof.Proof.Spec
import Idealize.ShloMosaic.Lib.ValueIdx
import Idealize.ShloMosaic.Lib.ValueLayout
import Idealize.ShloMosaic.PureOps.Ideal.Laws

set_option maxRecDepth 16384

noncomputable section

namespace Cert.Proof.RefValue

open Idealize.ShloMosaic Idealize.ShloMosaic.ValueIdx
open Cert.ReferenceIdeal

/-- A word made from a number below 10000 reads back as that number, unsigned and signed. -/
private theorem toNat_word (p : Fin 10000) : (BitVec.ofNat 32 p.val).toNat = p.val := by
  rw [BitVec.toNat_ofNat]; exact Nat.mod_eq_of_lt (by have := p.isLt; omega)

private theorem toInt_word (p : Fin 10000) : (BitVec.ofNat 32 p.val).toInt = (p.val : Int) := by
  rw [BitVec.toInt_eq_toNat_of_lt (by rw [toNat_word]; have := p.isLt; omega), toNat_word]

/-- The negative-index normalisation (add the extent where the index is negative) leaves a word below 10000 alone:
    read signed, the word is not below zero. -/
private theorem norm_word (p : Fin 10000) :
    Scalar.select (IntOp.cmpi .slt (BitVec.ofNat 32 p.val) (0#32)) (IntOp.addi (BitVec.ofNat 32 p.val) (10000#32))
      (BitVec.ofNat 32 p.val) = BitVec.ofNat 32 p.val := by
  have h : (BitVec.ofNat 32 p.val).slt 0#32 = false := by
    rw [BitVec.slt, toInt_word, BitVec.toInt_zero]
    exact decide_eq_false (by omega)
  show (if BitVec.ofBool ((BitVec.ofNat 32 p.val).slt 0#32) = 1 then _ else _) = _
  rw [h]
  rfl

/-- The two normalised index vectors: entry p is the word p. -/
private theorem v5_at (p : Fin 10000) : Read.val_main_v5 (F := Ideal) (ix1 p) = BitVec.ofNat 32 p.val := by
  rw [Read.val_main_v5_apply, Read.val_main_v2_apply, Read.val_main_v4_apply, Read.val_main_v0_apply,
    Read.val_main_v1_apply, Read.val_main_c_apply, Read.val_main_v3_apply, Read.val_main_c_0_apply]
  exact norm_word p

private theorem v10_at (p : Fin 10000) : Read.val_main_v10 (F := Ideal) (ix1 p) = BitVec.ofNat 32 p.val := by
  rw [Read.val_main_v10_apply, Read.val_main_v7_apply, Read.val_main_v9_apply, Read.val_main_v0_apply,
    Read.val_main_v6_apply, Read.val_main_c_1_apply, Read.val_main_v8_apply, Read.val_main_c_2_apply]
  exact norm_word p

/-- The same vectors as columns. -/
private theorem v11_at (p : Fin 10000) (q : Fin 1) : Read.val_main_v11 (F := Ideal) (ix2 p q) = BitVec.ofNat 32 p.val := by
  rw [Read.val_main_v11_apply, show Read.idx_main_v11 (ix2 p q) = ix1 p from
    funext fun a => Fin.ext (by match a with | ⟨0, _⟩ => rfl)]
  exact v5_at p

private theorem v12_at (p : Fin 10000) (q : Fin 1) : Read.val_main_v12 (F := Ideal) (ix2 p q) = BitVec.ofNat 32 p.val := by
  rw [Read.val_main_v12_apply, show Read.idx_main_v12 (ix2 p q) = ix1 p from
    funext fun a => Fin.ext (by match a with | ⟨0, _⟩ => rfl)]
  exact v10_at p

/-- The scatter's index operand, the two columns side by side: both entries of row p are the word p. -/
private theorem v13_at (p : Fin 10000) (c : Fin 2) : Read.val_main_v13 (F := Ideal) (ix2 p c) = BitVec.ofNat 32 p.val := by
  unfold Read.val_main_v13
  match c with
  | ⟨0, _⟩ =>
    rw [concatenate_pair_apply_left (s₁ := S10000x1) (s₂ := S10000x1) (1 : Fin S10000x2.rank) _ _ _ _ rfl (ix2 p (0 : Fin 1))
      (fun b => by match b with | ⟨0, _⟩ => rfl | ⟨1, _⟩ => rfl)]
    exact v11_at p 0
  | ⟨1, _⟩ =>
    rw [concatenate_pair_apply_right (s₁ := S10000x1) (s₂ := S10000x1) (1 : Fin S10000x2.rank) _ _ _ _ rfl rfl (ix2 p (0 : Fin 1))
      (fun b hb => by match b, hb with | ⟨0, _⟩, _ => rfl | ⟨1, _⟩, hb => exact absurd rfl hb) rfl]
    exact v12_at p 0

/-- The scatter at hand: no window axes, both operand axes inserted, the index vector along axis 1 of the indices. -/
private abbrev sd := scatter_S10000x10000_S10000x2_S10000_n_01_01_1

/-- Update k reads the two components of its start index at row (k 0) of the scatter indices. -/
private theorem siIdx_at (k : S10000.Idx) (c : Fin sd.scatterDimsToOperandDims.length) :
    sd.siIdx k c = ix2 (k 0) (⟨c.val, c.isLt⟩ : Fin 2) := by
  funext b
  match b with
  | ⟨0, _⟩ =>
    unfold ScatterDims.siIdx
    rw [dif_neg (show ¬ ((0 : Nat) = sd.indexVectorDim) by decide)]
    apply Fin.ext
    rfl
  | ⟨1, _⟩ =>
    unfold ScatterDims.siIdx
    rw [dif_pos (show ((1 : Nat) = sd.indexVectorDim) from rfl)]
    rfl

/-- With no window axes every window coordinate is 0. -/
private theorem window_at (k : S10000.Idx) (a : Fin S10000x10000.rank) : sd.window k a = 0 := by
  unfold ScatterDims.window
  exact dif_neg (by revert a; decide)

/-- The start of update k's (one-point) window on either operand axis is the word at row (k 0), read signed. -/
private theorem start_at (k : S10000.Idx) (idx : IVec S10000x2 32)
    (hI : ∀ (p : Fin 10000) (c : Fin 2), (idx (ix2 p c)).toInt = (p.val : Int)) (a : Fin S10000x10000.rank) :
    sd.start k idx a = ((k 0).val : Int) := by
  unfold ScatterDims.start
  rw [dif_pos (show a ∈ sd.scatterDimsToOperandDims by revert a; decide), siIdx_at]
  exact hI _ _

/-- Update k lands on the diagonal entry (k 0, k 0). -/
private theorem resultIdx_at (k : S10000.Idx) (idx : IVec S10000x2 32)
    (hI : ∀ (p : Fin 10000) (c : Fin 2), (idx (ix2 p c)).toInt = (p.val : Int)) :
    sd.resultIdx? k idx = some (ix2 (k 0) (k 0)) := by
  have hs : ∀ a, sd.start k idx a + (sd.window k a : Int) = ((k 0).val : Int) := fun a => by
    rw [start_at k idx hI a, window_at k a]; simp
  have hk : (k 0).val < 10000 := (k 0).isLt
  unfold ScatterDims.resultIdx?
  rw [dif_pos (fun a => by
    rw [hs a]
    refine ⟨by omega, ?_⟩
    match a with
    | ⟨0, _⟩ => exact Int.ofNat_lt.2 hk
    | ⟨1, _⟩ => exact Int.ofNat_lt.2 hk)]
  congr 1
  funext a
  apply Fin.ext
  show (sd.start k idx a + (sd.window k a : Int)).toNat = _
  rw [hs a, Int.toNat_natCast]
  match a with
  | ⟨0, _⟩ => rfl
  | ⟨1, _⟩ => rfl

/-- Adding one value v at (k, k) for every k: entry (i, j) gains v exactly when j = i, since the only update that
    lands on (i, j) is update i, and only when the entry is diagonal. -/
private theorem scatter_diag (x : S10000x10000.Idx → EReal) (idx : IVec S10000x2 32) (upd : S10000.Idx → EReal) (v : EReal)
    (hI : ∀ (p : Fin 10000) (c : Fin 2), (idx (ix2 p c)).toInt = (p.val : Int)) (hU : ∀ k, upd k = v)
    (i j : Fin 10000) :
    Ideal.hostScatterAdd sd x idx upd (ix2 i j) = x (ix2 i j) + (if j = i then v else 0) := by
  have hterm : ∀ k : S10000.Idx, (if sd.resultIdx? k idx = some (ix2 i j) then upd k else 0)
      = if k = ix1 i then (if j = i then v else 0) else 0 := fun k => by
    rw [resultIdx_at k idx hI, hU k]
    by_cases hk : k = ix1 i
    · rw [if_pos hk, hk]
      by_cases hji : j = i
      · rw [if_pos hji, hji]; exact if_pos rfl
      · rw [if_neg hji]
        exact if_neg fun h => hji (congrFun (Option.some.inj h) 1).symm
    · rw [if_neg hk]
      refine if_neg fun h => hk ?_
      have h0 : k 0 = i := congrFun (Option.some.inj h) 0
      rw [eq_ix1 k, h0]
      rfl
  unfold Ideal.hostScatterAdd
  congr 1
  rw [Finset.sum_filter, Finset.sum_congr rfl (fun k _ => hterm k), Finset.sum_ite_eq', if_pos (Finset.mem_univ _)]

/-- The adjacency matrix with self-loops: entry (i, j) of the scatter-add of 1.0 along the diagonal. -/
private theorem v15_at (x1 : (⟨S10000x10000, .f32⟩ : BufTy).Contents (Elt Ideal)) (i j : Fin 10000) :
    Read.val_main_v15 (F := Ideal) x1 (ix2 i j) = x1 (ix2 i j) + (if j = i then Spec.one else 0) := by
  have hI : ∀ (p : Fin 10000) (c : Fin 2), (Read.val_main_v13 (F := Ideal) (ix2 p c)).toInt = (p.val : Int) :=
    fun p c => by rw [v13_at, toInt_word]
  have hU : ∀ k, Read.val_main_v14 (F := Ideal) k = Spec.one := fun k => by
    rw [Read.val_main_v14_apply, Read.val_main_cst_apply]; rfl
  unfold Read.val_main_v15 Host.scatterAdd
  rw [Ideal.hostScatterAdd_def]
  exact scatter_diag x1 _ _ _ hI hU i j

/-! The index maps of the layout operations and the two products, at indices given by their coordinates. -/
private theorem lidx24_eq (i : Fin 10000) (o k : Fin 128) : Read.lidx_main_v24 (ix2 i o) k = ix2 i k :=
  funext fun a => Fin.ext (by match a with | ⟨0, _⟩ => rfl | ⟨1, _⟩ => rfl)
private theorem ridx24_eq (i : Fin 10000) (o k : Fin 128) : Read.ridx_main_v24 (ix2 i o) k = ix2 k o :=
  funext fun a => Fin.ext (by match a with | ⟨0, _⟩ => rfl | ⟨1, _⟩ => rfl)
private theorem idx23_eq (c o : Fin 128) : Read.idx_main_v23 (ix2 c o) = ix2 o c :=
  funext fun a => Fin.ext (by match a with | ⟨0, _⟩ => rfl | ⟨1, _⟩ => rfl)
private theorem lidx21_eq (i : Fin 10000) (c : Fin 128) (k : Fin 10000) : Read.lidx_main_v21 (ix2 i c) k = ix2 i k :=
  funext fun a => Fin.ext (by match a with | ⟨0, _⟩ => rfl | ⟨1, _⟩ => rfl)
private theorem ridx21_eq (i : Fin 10000) (c : Fin 128) (k : Fin 10000) : Read.ridx_main_v21 (ix2 i c) k = ix2 k c :=
  funext fun a => Fin.ext (by match a with | ⟨0, _⟩ => rfl | ⟨1, _⟩ => rfl)
private theorem idx17_eq (i k : Fin 10000) : Read.idx_main_v17 (ix2 i k) = ix2 i (0 : Fin 1) :=
  funext fun a => Fin.ext (by match a with | ⟨0, _⟩ => rfl | ⟨1, _⟩ => rfl)
private theorem idx19_eq (i k : Fin 10000) : Read.idx_main_v19 (ix2 i k) = ix2 i (0 : Fin 1) :=
  funext fun a => Fin.ext (by match a with | ⟨0, _⟩ => rfl | ⟨1, _⟩ => rfl)
private theorem idx26_eq (i : Fin 10000) (o : Fin 128) : Read.idx_main_v26 (ix2 i o) = ix2 (0 : Fin 1) o :=
  funext fun a => Fin.ext (by match a with | ⟨0, _⟩ => rfl | ⟨1, _⟩ => rfl)
private theorem idx25_eq (z : Fin 1) (o : Fin 128) : Read.idx_main_v25 (ix2 z o) = ix1 o :=
  funext fun a => Fin.ext (by match a with | ⟨0, _⟩ => rfl)

theorem reference_value (x0 : (⟨S10000x128, .f32⟩ : BufTy).Contents (Elt Ideal)) (x1 : (⟨S10000x10000, .f32⟩ : BufTy).Contents (Elt Ideal))
    (x2 : (⟨S10000x1, .f32⟩ : BufTy).Contents (Elt Ideal)) (x3 : (⟨S128x128, .f32⟩ : BufTy).Contents (Elt Ideal))
    (x4 : (⟨S128, .f32⟩ : BufTy).Contents (Elt Ideal)) (i : Fin 10000) (o : Fin 128) :
    Cert.ReferenceIdeal.Read.val_main_v28 (F := Ideal) x0 x1 x2 x3 x4 (ix2 i o) = Cert.Proof.Spec.referenceForm x0 x1 x2 x3 x4 i o := by
  -- Read the stages from the result inwards, name every index by its coordinates, and read the float operations as
  -- the operations of the extended reals; what is left is the specification's expression term for term.
  rw [Read.val_main_v28_apply, Read.val_main_v27_apply, Read.val_main_v24_apply, Read.val_main_v26_apply,
    Read.val_main_v25_apply, Read.val_main_call0_v0_apply, Read.val_main_call0_cst_apply]
  simp only [lidx24_eq, ridx24_eq, idx26_eq, idx25_eq, Read.val_main_v23_apply, idx23_eq, Read.val_main_v22_apply,
    Read.val_main_v21_apply, lidx21_eq, ridx21_eq, Read.val_main_v20_apply, Read.val_main_v18_apply,
    Read.val_main_v19_apply, Read.val_main_v17_apply, idx17_eq, idx19_eq, Read.val_main_v16_apply, v15_at,
    Ideal.maximumf_def, Ideal.addf_def, Ideal.mulf_def, Ideal.hostUnary_rsqrt_def, Ideal.ofBits_def]
  unfold Spec.referenceForm Spec.layer Spec.poolR
  rfl

end Cert.Proof.RefValue

end
-- ==== Proof.Algebra.lean ====
/-
  The two arrangements of the layer agree on finite inputs with positive degrees.
-/
import proofs.«172173_g23605140259235_cont_8to1_1967_13_alg».proof.Proof.Spec
import Mathlib.Data.EReal.Basic
import Mathlib.Data.EReal.Operations
import Mathlib.Analysis.SpecialFunctions.Pow.Real

noncomputable section

namespace Cert.Proof.Algebra

open Idealize.ShloMosaic Idealize.ShloMosaic.ValueIdx Cert.Proof.Spec

/-- The word of the literal 1.0 denotes the real one. -/
private theorem one_eq : (one : EReal) = 1 := by
  simp [one, Ideal.ofBits, Ideal.ieee, -EReal.coe_mul]; norm_num

/-- The embedding of the reals commutes with finite sums. -/
private theorem coe_sum {ι : Type} (s : Finset ι) (f : ι → ℝ) :
    ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- The reciprocal square root of a positive real. -/
private theorem rsqrt_coe (r : ℝ) (hr : 0 < r) : Ideal.rsqrt (r : EReal) = (((Real.sqrt r)⁻¹ : ℝ) : EReal) := by
  have h : Ideal.rsqrt (r : EReal) = if r < 0 then ⊥ else if r = 0 then ⊤ else (((Real.sqrt r)⁻¹ : ℝ) : EReal) := rfl
  rw [h, if_neg (not_lt.mpr hr.le), if_neg hr.ne']

/-- The quotient of one by a positive real. -/
private theorem div_one_coe (r : ℝ) (hr : 0 < r) : Ideal.div 1 (r : EReal) = ((r⁻¹ : ℝ) : EReal) := by
  have h0 : (r : EReal) ≠ 0 := by exact_mod_cast hr.ne'
  rw [Ideal.div, if_neg h0, one_mul, ← EReal.coe_inv]

/-- The two arrangements of the pooled features agree: over finite reals with a positive degree
    the two reciprocal square roots multiply to the reciprocal, the sum distributes, and the
    self-loop term of the sum is the node's own feature. -/
private theorem pool_eq (x : SX.Idx → EReal) (a : SA.Idx → EReal) (d : SD.Idx → EReal)
    (hx : ∀ j, x j ≠ ⊤ ∧ x j ≠ ⊥) (ha : ∀ j, a j ≠ ⊤ ∧ a j ≠ ⊥) (hd : ∀ j, 0 < d j ∧ d j ≠ ⊤)
    (i : Fin 10000) (c : Fin 128) : poolR x a d i c = poolK x a d i c := by
  have hx' : ∀ j, ∃ r : ℝ, x j = r :=
    fun j => ⟨(x j).toReal, (EReal.coe_toReal (hx j).1 (hx j).2).symm⟩
  have ha' : ∀ j, ∃ r : ℝ, a j = r :=
    fun j => ⟨(a j).toReal, (EReal.coe_toReal (ha j).1 (ha j).2).symm⟩
  choose xr hxr using hx'
  choose ar har using ha'
  obtain ⟨dr, hdr⟩ : ∃ r : ℝ, d (ix2 i (0 : Fin 1)) = r :=
    ⟨_, (EReal.coe_toReal (hd _).2 (ne_bot_of_gt (hd _).1)).symm⟩
  have hpos : 0 < dr := by
    have h := (hd (ix2 i (0 : Fin 1))).1
    rw [hdr] at h
    exact_mod_cast h
  unfold poolR poolK agg
  rw [hdr, one_eq, rsqrt_coe dr hpos, div_one_coe dr hpos]
  have h1 : ∀ j : Fin 10000,
      (if j = i then (1 : EReal) else 0) = (((if j = i then (1 : ℝ) else 0) : ℝ) : EReal) := by
    intro j; split_ifs <;> simp
  simp only [hxr, har, h1, ← EReal.coe_add, ← EReal.coe_mul, ← coe_sum]
  congr 1
  have hs : (√dr)⁻¹ * (√dr)⁻¹ = dr⁻¹ := by
    rw [← mul_inv, Real.mul_self_sqrt hpos.le]
  have ht : ∀ j : Fin 10000,
      (√dr)⁻¹ * (ar (ix2 i j) + if j = i then 1 else 0) * (√dr)⁻¹ * xr (ix2 j c)
        = dr⁻¹ * (ar (ix2 i j) * xr (ix2 j c)) + dr⁻¹ * (if j = i then xr (ix2 j c) else 0) := by
    intro j
    rw [← hs]
    split_ifs <;> ring
  simp only [ht, Finset.sum_add_distrib, ← Finset.mul_sum, Finset.sum_ite_eq', Finset.mem_univ,
    if_true]
  ring

theorem forms_agree (x : SX.Idx → EReal) (a : SA.Idx → EReal) (d : SD.Idx → EReal) (w : SW.Idx → EReal) (b : SB.Idx → EReal)
    (hx : ∀ j, x j ≠ ⊤ ∧ x j ≠ ⊥) (ha : ∀ j, a j ≠ ⊤ ∧ a j ≠ ⊥) (hd : ∀ j, 0 < d j ∧ d j ≠ ⊤)
    (i : Fin 10000) (o : Fin 128) :
    referenceForm x a d w b i o = kernelForm x a d w b i o := by
  unfold referenceForm kernelForm layer
  simp only [pool_eq x a d hx ha hd]

end Cert.Proof.Algebra

end
-- ==== Proof.PreFacts.lean ====
/-
  What the precondition says of the arrays: every entry of the features and of the adjacency
  matrix is a finite real, and every degree is a finite positive real.
-/
import proofs.«172173_g23605140259235_cont_8to1_1967_13_alg».proof.Pre_finite_inputs
import proofs.«172173_g23605140259235_cont_8to1_1967_13_alg».proof.Proof.Gen.Pre_finite_inputs
import Idealize.ShloMosaic.PureOps.Ideal
import Idealize.ShloMosaic.Lib.ValueIdx
import Idealize.ShloMosaic.Lib.ReduceAll

noncomputable section

namespace Cert.Proof.PreFacts

open Idealize.ShloMosaic Cert.Pre_finite_inputs

/-- The rank-0 shape has one index. -/
private instance : Subsingleton S_.Idx := ⟨fun a b => funext fun d => d.elim0⟩

/-- The word of the literal +∞ denotes the top element. -/
private theorem inf_eq : Ideal.ofBits .f32 0x7F800000#32 = (⊤ : EReal) := by
  simp [Ideal.ofBits, Ideal.ieee]

/-- The word of the literal 0.0 denotes zero. -/
private theorem zero_eq : Ideal.ofBits .f32 0x00000000#32 = (0 : EReal) := by
  simp [Ideal.ofBits, Ideal.ieee]

/-- A decided proposition's bit is set exactly when it holds. -/
private theorem ofBool_one (b : Bool) : BitVec.ofBool b = 1#1 ↔ b = true := by cases b <;> decide

/-- An absolute value below +∞ is that of a finite real. -/
private theorem finite_of_abs_lt (x : EReal)
    (h : Ideal.cmp .olt (max x (-x)) (Ideal.ofBits .f32 0x7F800000#32) = 1#1) : x ≠ ⊤ ∧ x ≠ ⊥ := by
  rw [inf_eq] at h
  have h' : max x (-x) < ⊤ := by
    unfold Ideal.cmp at h
    rw [ofBool_one] at h
    simpa using h
  constructor
  · rintro rfl; simp at h'
  · rintro rfl; simp at h'

/-- A comparison above 0.0 that holds says the element is positive. -/
private theorem pos_of_gt (x : EReal)
    (h : Ideal.cmp .ogt x (Ideal.ofBits .f32 0x00000000#32) = 1#1) : 0 < x := by
  rw [zero_eq] at h
  unfold Ideal.cmp at h
  rw [ofBool_one] at h
  simpa using h

theorem pre_facts (a0 : FVec Ideal S10000x128 .f32) (a1 : FVec Ideal S10000x10000 .f32) (a2 : FVec Ideal S10000x1 .f32)
    (a3 : FVec Ideal S128x128 .f32) (a4 : FVec Ideal S128 .f32)
    (h : Cert.Pre_finite_inputs.fn (F := Ideal) a0 a1 a2 a3 a4 = fun _ => 1#1) :
    (∀ j, a0 j ≠ ⊤ ∧ a0 j ≠ ⊥) ∧ (∀ j, a1 j ≠ ⊤ ∧ a1 j ≠ ⊥) ∧ (∀ j, 0 < a2 j ∧ a2 j ≠ ⊤) := by
  have e := congrFun h ValueIdx.ix0
  dsimp only [fn, fn_part1] at e
  simp only [andi, IntOp.andi_eq_one] at e
  obtain ⟨⟨⟨⟨⟨h0, h1⟩, h2⟩, -⟩, -⟩, h5⟩ := e
  refine ⟨fun j => ?_, fun j => ?_, fun j => ⟨?_, ?_⟩⟩
  · exact finite_of_abs_lt (a0 j) (Host.reduce_andi_all _ _ _ _ _ h0 j)
  · exact finite_of_abs_lt (a1 j) (Host.reduce_andi_all _ _ _ _ _ h1 j)
  · exact pos_of_gt (a2 j) (Host.reduce_andi_all _ _ _ _ _ h5 j)
  · exact (finite_of_abs_lt (a2 j) (Host.reduce_andi_all _ _ _ _ _ h2 j)).1

end Cert.Proof.PreFacts

end
-- ==== Proof.lean ====
/-
  One graph-convolution layer with mean aggregation: the Pallas kernel against its jnp reference.

  The kernel walks the 10000 nodes in 25 grid steps; at each step it stages one 200-row strip of
  the adjacency matrix from the top half of the rows and one from the bottom half (the same array
  through two windows), keeps the 10000 × 128 feature matrix resident, and for each strip computes
  relu((s ⊙ (A·x + x_rows) + x_rows)·Wᵀ + b) with s = 1 / degree. The reference adds self-loops to
  the matrix, scales its rows by rsqrt(degree) on both sides, multiplies by x, adds x, and applies
  the same linear map, bias and rectifier. Over finite reals with positive degrees
  rsqrt(d)·rsqrt(d) = 1/d and the row sum distributes, so the two results agree entry by entry
  (Spec, Algebra); positivity of the degrees is the domain of the reference's rsqrt and is part of
  the precondition (PreFacts reads it, with finiteness, off the printed predicate).

  The kernel's run (terminates, no fault, arguments unchanged, the result array named) is proved
  once, generically in the float instance, from the body's triple (Body), the pipeline's proof data
  and body obligation (Dats, Oblig) and the launch of @main as host operations, the region, host
  operations (Run); the word-level program's frame is that run read at the word instance, the
  idealized program's value is that run read at the ideal instance (Payload, Value). The
  reference's run is its generated read-back; its result is read element by element in RefValue.
-/
import proofs.«172173_g23605140259235_cont_8to1_1967_13_alg».proof.Defs
import proofs.«172173_g23605140259235_cont_8to1_1967_13_alg».proof.Proof.Gen.Kernel
import proofs.«172173_g23605140259235_cont_8to1_1967_13_alg».proof.Proof.Gen.KernelIdeal
import proofs.«172173_g23605140259235_cont_8to1_1967_13_alg».proof.Proof.Gen.ReferenceIdeal
import proofs.«172173_g23605140259235_cont_8to1_1967_13_alg».proof.Proof.Gen.Pre_finite_inputs
import proofs.«172173_g23605140259235_cont_8to1_1967_13_alg».proof.Proof.Gen.ReferenceIdeal.Run
import proofs.«172173_g23605140259235_cont_8to1_1967_13_alg».proof.Proof.Gen.ReferenceIdeal.Read
import proofs.«172173_g23605140259235_cont_8to1_1967_13_alg».proof.Proof.K.Run
import proofs.«172173_g23605140259235_cont_8to1_1967_13_alg».proof.Proof.KI.Run
import proofs.«172173_g23605140259235_cont_8to1_1967_13_alg».proof.Proof.KI.Value
import proofs.«172173_g23605140259235_cont_8to1_1967_13_alg».proof.Proof.RefValue
import proofs.«172173_g23605140259235_cont_8to1_1967_13_alg».proof.Proof.Algebra
import proofs.«172173_g23605140259235_cont_8to1_1967_13_alg».proof.Proof.PreFacts
import Idealize.ShloMosaic.Adequacy
import Idealize.ShloMosaic.Init

noncomputable section

namespace Cert.Proof

open Idealize.ShloMosaic Idealize.SL.Sem Idealize.ShloMosaic.ValueIdx

/-- The word-level kernel runs to the end and leaves its five arguments unchanged. -/
theorem frame_Kernel : Cert.frame_Kernel (hKernel := Cert.Kernel.Gen.facts) (hPre_finite_inputs := Cert.Pre_finite_inputs.Gen.facts) :=
  fun m ρ _ => (θ_run Cert.Kernel.defs _ _).mono (fun _ h c => (h c).2) (Cert.Kernel.Hand.run_main (F := Bits) m ρ)

/-- So does the idealized kernel. -/
theorem frame_KernelIdeal : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2) (Cert.KernelIdeal.Hand.run_main (F := Ideal) m ρ)

/-- And the reference: its generated run with the result dropped. -/
theorem frame_ReferenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the five arrays, both programs end with the same result: entry (i, o) of either is
    the layer's output for node i and channel o, in two arrangements that agree on finite inputs with positive degrees. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) :=
  fun m ρ m' ρ' hpre hagree =>
    ⟨fun c => Cert.KernelIdeal.Hand.finalOut (F := Ideal) m c,
     Cert.KernelIdeal.Hand.run_main (F := Ideal) m ρ,
     (θ_run Cert.ReferenceIdeal.defs _ _).mono (fun _ h c => ⟨by
        obtain ⟨h0, h1, h2, h3, h4⟩ := hagree c
        obtain ⟨f0, f1, f2⟩ := Cert.Proof.PreFacts.pre_facts _ _ _ _ _ (hpre c)
        rw [(h c).1, Cert.ReferenceIdeal.Read.val_main_v28_eq, h0, h1, h2, h3, h4]
        funext j
        obtain ⟨i, o, rfl⟩ : ∃ (i : Fin 10000) (o : Fin 128), j = ix2 i o := ⟨j 0, j 1, eq_ix2 j⟩
        exact (Cert.Proof.RefValue.reference_value _ _ _ _ _ i o).trans
          ((Cert.Proof.Algebra.forms_agree _ _ _ _ _ f0 f1 f2 i o).trans (Cert.KernelIdeal.HandValue.finalOut_eq m c i o).symm),
        (h c).2⟩) (Cert.ReferenceIdeal.Value.run (F := Ideal) m' ρ')⟩

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, trivial, algebraic⟩

end Cert.Proof

end
